-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S50000x64 .f32) (main_arg1 : IVec S2x800000 32) (main_arg2 : FVec F S64x64 .f32) (main_arg3 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x64 : Shape := ⟨2, ![5000, 64]⟩
abbrev S5000x1 : Shape := ⟨2, ![5000, 1]⟩
abbrev S800000x64 : Shape := ⟨2, ![800000, 64]⟩
abbrev S1x64 : Shape := ⟨2, ![1, 64]⟩

abbrev nBuf : Space → Nat
  | .hbm => 42
  | .vmem => 7
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S50000x64, .bf16⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .bf16⟩
  | .hbm, ⟨29, _⟩ => ⟨S800000x64, .f32⟩
  | .hbm, ⟨30, _⟩ => ⟨S_, .f32⟩
  | .hbm, ⟨31, _⟩ => ⟨S50000x64, .f32⟩
  | .hbm, ⟨32, _⟩ => ⟨S800000x1, .i32⟩
  | .hbm, ⟨33, _⟩ => ⟨S50000x64, .f32⟩
  | .hbm, ⟨34, _⟩ => ⟨S50000x64, .f32⟩
  | .hbm, ⟨35, _⟩ => ⟨S50000x64, .f32⟩
  | .hbm, ⟨36, _⟩ => ⟨S50000x1, .f32⟩
  | .hbm, ⟨37, _⟩ => ⟨S50000x64, .f32⟩
  | .hbm, ⟨38, _⟩ => ⟨S50000x64, .f32⟩
  | .hbm, ⟨39, _⟩ => ⟨S1x64, .f32⟩
  | .hbm, ⟨40, _⟩ => ⟨S50000x64, .f32⟩
  | .hbm, ⟨41, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .bf16⟩
  | .local _ .vmem, ⟨6, _⟩ => ⟨S5000x64, .bf16⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  packedbf16_S5000x64_S5000x64_0_0 : (Rect.unit (s := S5000x64) ![0, 0] S5000x64.size inb_S5000x64_S5000x64_0_0).PackedRows (EltTy.packing .bf16)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .bf16 = 32 ∨ (Rect.block (s := S50000x64) S5000x64.size (cc0_transform_3 i) (hinb0_3 i)).WholeWords (EltTy.packing .bf16)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩

abbrev nBuf : Space → Nat
  | .hbm => 64
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S50000x64, .f32⟩
  | .hbm, ⟨5, _⟩ => ⟨S50000, .i32⟩
  | .hbm, ⟨6, _⟩ => ⟨S1x800000, .i32⟩
  | .hbm, ⟨7, _⟩ => ⟨S800000, .i32⟩
  | .hbm, ⟨8, _⟩ => ⟨S850000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S_, .f32⟩
  | .hbm, ⟨13, _⟩ => ⟨S850000, .f32⟩
  | .hbm, ⟨14, _⟩ => ⟨S_, .f32⟩
  | .hbm, ⟨15, _⟩ => ⟨S50000, .f32⟩
  | .hbm, ⟨16, _⟩ => ⟨S850000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x64, .f32⟩
  | .hbm, ⟨54, _⟩ => ⟨S850000x1, .f32⟩
  | .hbm, ⟨55, _⟩ => ⟨S850000x64, .f32⟩
  | .hbm, ⟨56, _⟩ => ⟨S850000x64, .f32⟩
  | .hbm, ⟨57, _⟩ => ⟨S_, .f32⟩
  | .hbm, ⟨58, _⟩ => ⟨S50000x64, .f32⟩
  | .hbm, ⟨59, _⟩ => ⟨S850000x1, .i32⟩
  | .hbm, ⟨60, _⟩ => ⟨S50000x64, .f32⟩
  | .hbm, ⟨61, _⟩ => ⟨S1x64, .f32⟩
  | .hbm, ⟨62, _⟩ => ⟨S50000x64, .f32⟩
  | .hbm, ⟨63, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x64_S64x64_S50000x64_1_0_0_1_n_n_wf : DotDims.WF S50000x64 S64x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelTerm.lean ====
/-
  The value the kernel's program leaves in its result, written as one term of the four argument arrays.

  The program first counts, for every node `i`, the edges whose target word is `i` and adds one for the node's own
  loop (`degree`), takes the inverse square root (`invSqrtDeg`), and hands the region the column of those numbers.
  The region's array is, row by row, the product `x · W` scaled by the row's number (`scaledProduct`: at the
  extended reals a change of float format is the identity, and a matrix product into a zero accumulator is the sum
  over the contracted axis). After the region the rows of that array named by the source words — a negative word
  wrapped by the number of nodes, then clamped into the axis by the gather — are added into the rows named by the
  target words, the array itself is added (the node's own loop), every row is scaled once more by its number, and the
  bias row is added (`tail`).
-/
import proofs.«429570_j84267258348157_3_alg».proof.Proof.Gen.KernelIdeal
import Idealize.ShloMosaic.Lib.ValueIdx

noncomputable section

namespace Cert.KernelIdeal.HostTerm

open Cert.KernelIdeal Cert.KernelIdeal.Gen Idealize.ShloMosaic Idealize.ShloMosaic.TcCoe Idealize.ShloMosaic.ValueIdx

variable {F : FTy → Type} [FloatOps F]

/-- Row 0 of the edge list: the source words. -/
def srcRow (ei : (⟨S2x800000, .i32⟩ : BufTy).Contents (Elt F)) : (⟨S800000, .i32⟩ : BufTy).Contents (Elt F) :=
  shapeCast _ (extractStridedSlice S1x800000 ![0, 0] ei slices_S2x800000_S1x800000_0_0) shapeCasts_S1x800000_S800000

/-- Row 1 of the edge list: the target words. -/
def dstRow (ei : (⟨S2x800000, .i32⟩ : BufTy).Contents (Elt F)) : (⟨S800000, .i32⟩ : BufTy).Contents (Elt F) :=
  shapeCast _ (extractStridedSlice S1x800000 ![1, 0] ei slices_S2x800000_S1x800000_1_0) shapeCasts_S1x800000_S800000

/-- The degree of every node: a one for each edge whose target word names the node, added into zeros, plus one. -/
def degree (ei : (⟨S2x800000, .i32⟩ : BufTy).Contents (Elt F)) : (⟨S50000, .f32⟩ : BufTy).Contents (Elt F) :=
  addf (Host.scatterAdd scatter_S50000_S800000x1_S800000_n_0_0_1
      (broadcastInDim S50000 ![] bcast_S_S50000 (constant S_ .f32 0x00000000#32))
      (broadcastInDim S800000x1 ![0] bcast_S800000_S800000x1_0 (dstRow ei))
      (broadcastInDim S800000 ![] bcast_S_S800000 (constant S_ .f32 0x3F800000#32)))
    (broadcastInDim S50000 ![] bcast_S_S50000 (constant S_ .f32 0x3F800000#32))

/-- The inverse square root of the degree. -/
def invSqrtDeg (ei : (⟨S2x800000, .i32⟩ : BufTy).Contents (Elt F)) : (⟨S50000, .f32⟩ : BufTy).Contents (Elt F) :=
  Host.rsqrt (degree ei)

/-- The same as a column, the region's third operand. -/
def invSqrtDegCol (ei : (⟨S2x800000, .i32⟩ : BufTy).Contents (Elt F)) : (⟨S50000x1, .f32⟩ : BufTy).Contents (Elt F) :=
  broadcastInDim S50000x1 ![0] bcast_S50000_S50000x1_0 (invSqrtDeg ei)

/-- The source words with the number of nodes added to the negative ones. -/
def wrappedSrc (ei : (⟨S2x800000, .i32⟩ : BufTy).Contents (Elt F)) : (⟨S800000, .i32⟩ : BufTy).Contents (Elt F) :=
  select (cmpi .slt (srcRow ei) (broadcastInDim S800000 ![] bcast_S_S800000 (constantI S_ 32 0#32)))
    (addi (srcRow ei) (broadcastInDim S800000 ![] bcast_S_S800000 (constantI S_ 32 50000#32))) (srcRow ei)

/-- What the program computes after the region from the region's array `Y`. -/
def tail (Y : (⟨S50000x64, .bf16⟩ : BufTy).Contents (Elt F)) (ei : (⟨S2x800000, .i32⟩ : BufTy).Contents (Elt F))
    (b : (⟨S64, .f32⟩ : BufTy).Contents (Elt F)) : (⟨S50000x64, .f32⟩ : BufTy).Contents (Elt F) :=
  addf (mulf (addf (Host.scatterAdd scatter_S50000x64_S800000x1_S800000x64_1_0_0_1
          (broadcastInDim S50000x64 ![] bcast_S_S50000x64 (constant S_ .f32 0x00000000#32))
          (broadcastInDim S800000x1 ![0] bcast_S800000_S800000x1_0 (dstRow ei))
          (extf .f32 (Host.gather gather_S50000x64_S800000x1_S800000x64_1_0_n_n_0_1_164 Y
            (broadcastInDim S800000x1 ![0] bcast_S800000_S800000x1_0 (wrappedSrc ei))) bitsLt_bf16_f32))
        (extf .f32 Y bitsLt_bf16_f32))
      (broadcastInDim S50000x64 ![0, 1] bcast_S50000x1_S50000x64_0_1
        (broadcastInDim S50000x1 ![0] bcast_S50000_S50000x1_0 (invSqrtDeg ei))))
    (broadcastInDim S50000x64 ![0, 1] bcast_S1x64_S50000x64_0_1 (broadcastInDim S1x64 ![1] bcast_S64_S1x64_1 b))

/-- The region's array at the extended reals: entry `(n, c)` is `(∑ k, x (n, k) · w (k, c)) · dcol (n, 0)`. -/
def scaledProduct (x : (⟨S50000x64, .f32⟩ : BufTy).Contents (Elt Ideal)) (w : (⟨S64x64, .f32⟩ : BufTy).Contents (Elt Ideal))
    (dcol : (⟨S50000x1, .f32⟩ : BufTy).Contents (Elt Ideal)) : (⟨S50000x64, .bf16⟩ : BufTy).Contents (Elt Ideal) :=
  fun j => (∑ k : Fin 64, x (ix2 (⟨(j 0).val, idx2_lt0 j⟩ : Fin 50000) k) * w (ix2 k (⟨(j 1).val, idx2_lt1 j⟩ : Fin 64)))
    * dcol (ix2 (⟨(j 0).val, idx2_lt0 j⟩ : Fin 50000) (0 : Fin 1))

/-- The program's result as a term of its four arguments. -/
def out (x : (⟨S50000x64, .f32⟩ : BufTy).Contents (Elt Ideal)) (ei : (⟨S2x800000, .i32⟩ : BufTy).Contents (Elt Ideal))
    (w : (⟨S64x64, .f32⟩ : BufTy).Contents (Elt Ideal)) (b : (⟨S64, .f32⟩ : BufTy).Contents (Elt Ideal)) :
    (⟨S50000x64, .f32⟩ : BufTy).Contents (Elt Ideal) :=
  tail (scaledProduct x w (invSqrtDegCol ei)) ei b

end Cert.KernelIdeal.HostTerm

end
-- ==== Proof.KernelHost.lean ====
/-
  What the program's operations before the region leave in the buffers the region and the later operations read:
  the two rows of the edge list, the inverse square root of the degrees, and that vector as a column.
-/
import proofs.«429570_j84267258348157_3_alg».proof.Proof.Gen.KernelIdeal.Frame
import proofs.«429570_j84267258348157_3_alg».proof.Proof.KernelTerm
import Idealize.ShloMosaic.Lib.StableHlo.Run

noncomputable section

namespace Cert.KernelIdeal.HostTerm

open Cert.KernelIdeal Cert.KernelIdeal.Gen
open Idealize.ShloMosaic Idealize.ShloMosaic.TcCoe Idealize.SL.Sem
open Idealize.ShloMosaic.ValueIdx
open Idealize.ShloMosaic.StableHlo

variable {F : FTy → Type} [FloatOps F]
variable (m : (ℓ : Loc nD τ sig) → Buf (Elt F) ℓ)

/-- The source words: row 0 of the edge list as launched. -/
theorem entry_sources (c : Dev nD) :
    V0 m c (Proc.devRef .tc main_v1) = srcRow (m ((c.tc : Thread nD τ).loc main_arg1)) := by
  show StableHlo.after hostOps0 (fun b => m (c, b)) (Proc.devRef .tc main_v1) = _
  after_results
  rfl

/-- The target words: row 1 of the edge list as launched. -/
theorem entry_targets (c : Dev nD) :
    V0 m c (Proc.devRef .tc main_v3) = dstRow (m ((c.tc : Thread nD τ).loc main_arg1)) := by
  show StableHlo.after hostOps0 (fun b => m (c, b)) (Proc.devRef .tc main_v3) = _
  after_results
  rfl

/-- The inverse square root of the degrees, a function of the edge list as launched. -/
theorem entry_invSqrtDeg (c : Dev nD) :
    V0 m c (Proc.devRef .tc main_v10) = invSqrtDeg (m ((c.tc : Thread nD τ).loc main_arg1)) := by
  show StableHlo.after hostOps0 (fun b => m (c, b)) (Proc.devRef .tc main_v10) = _
  after_results
  rfl

/-- The region's third operand: the same as a column. -/
theorem entry_invSqrtDegCol (c : Dev nD) :
    V m c main_v11 = invSqrtDegCol (m ((c.tc : Thread nD τ).loc main_arg1)) := by
  show StableHlo.after hostOps0 (fun b => m (c, b)) (Proc.devRef .tc main_v11) = _
  after_results
  rfl

end Cert.KernelIdeal.HostTerm

end
-- ==== Proof.KernelPayload.lean ====
/-
  The region's body at one entry of a block, at the extended reals.

  The body narrows the block of `x` and the weights (no change of value at the extended reals), multiplies them
  into a zero accumulator (the sum over the contracted axis of the products), scales row `p` by the one number
  the column block holds for that row, and narrows again. So entry `(p, q)` of what it stores is
  `(∑ k, x (p, k) · w (k, q)) · d (p, 0)`.
-/
import proofs.«429570_j84267258348157_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.HostTerm

open Cert.KernelIdeal Cert.KernelIdeal.Gen
open Idealize.ShloMosaic Idealize.ShloMosaic.TcCoe Idealize.SL.Sem
open Idealize.ShloMosaic.ValueIdx

/-- The left operand of the product is read at the output's row … -/
theorem lhs_dot_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and the contracted coordinate, -/
theorem lhs_dot_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand at the contracted coordinate … -/
theorem rhs_dot_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … and the output's column. -/
theorem rhs_dot_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block product into the zero accumulator, at entry `(p, q)`: the sum over the 64 contracted coordinates. -/
theorem blockProduct_at {φ₁ φ₂ : FTy} (a : FVec Ideal S5000x64 φ₁) (b : FVec Ideal S64x64 φ₂) (p : Fin 5000) (q : Fin 64) :
    matmul dot_S5000x64_S64x64_S5000x64_1_0_0_1_n_n none a b (constant (F := Ideal) S5000x64 .f32 0x00000000#32) (ix2 p q)
      = ∑ k : Fin 64, a (ix2 p k) * b (ix2 k q) := by
  show FloatOps.matmul dot_S5000x64_S64x64_S5000x64_1_0_0_1_n_n none a b (constant (F := Ideal) S5000x64 .f32 0x00000000#32) (ix2 p q) = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun ax => Fin.ext (by
    match ax with
    | ⟨0, _⟩ => exact lhs_dot_0 _ _
    | ⟨1, _⟩ => exact (lhs_dot_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun ax => Fin.ext (by
    match ax with
    | ⟨0, _⟩ => exact (rhs_dot_0 _ _).trans hk
    | ⟨1, _⟩ => exact rhs_dot_1 _ _)
  rw [el, er]

/-- The column block laid along the 64 columns reads, at `(p, q)`, the column's entry for row `p`. -/
theorem column_along_at (d : FVec Ideal S5000x1 .f32) (p : Fin 5000) (q : Fin 64) :
    broadcastTo S5000x64 (shapeCast S5000x1 d shapeCasts_S5000x1_S5000x1) broadcasts_S5000x1_S5000x64 (ix2 p q) = d (ix2 p (0 : Fin 1)) := by
  rw [shapeCast_self]
  refine broadcastTo_apply d broadcasts_S5000x1_S5000x64 (ix2 p q) (ix2 p (0 : Fin 1)) fun ax => ?_
  match ax with
  | ⟨0, _⟩ => rfl
  | ⟨1, _⟩ => rfl

/-- ENTRY `(p, q)` OF WHAT THE BODY STORES, from the three blocks it loads. -/
theorem payload_at (x0 : Vec Ideal S5000x64 .f32) (x1 : Vec Ideal S64x64 .f32) (x2 : Vec Ideal S5000x1 .f32) (p : Fin 5000) (q : Fin 64) :
    (k0_pay1 (F := Ideal) x0 x1 x2) (ix2 p q) = (∑ k : Fin 64, x0 (ix2 p k) * x1 (ix2 k q)) * x2 (ix2 p (0 : Fin 1)) := by
  unfold k0_pay1
  -- a narrowing and a product read through at an entry: what is left is the two factors at `(p, q)`
  show matmul dot_S5000x64_S64x64_S5000x64_1_0_0_1_n_n none (truncf .bf16 x0 bitsLt_bf16_f32) (truncf .bf16 x1 bitsLt_bf16_f32)
        (constant (F := Ideal) S5000x64 .f32 0x00000000#32) (ix2 p q)
      * broadcastTo S5000x64 (shapeCast S5000x1 x2 shapeCasts_S5000x1_S5000x1) broadcasts_S5000x1_S5000x64 (ix2 p q) = _
  exact congrArg₂ (· * ·) (blockProduct_at (truncf .bf16 x0 bitsLt_bf16_f32) (truncf .bf16 x1 bitsLt_bf16_f32) p q)
    (column_along_at x2 p q)

end Cert.KernelIdeal.HostTerm

end
-- ==== Proof.KernelBlocks.lean ====
/-
  From the ten row blocks to the region's whole array.

  Point `t` of the grid reads rows `5000 t … 5000 t + 4999` of `x` and of the column of scale factors, all of the
  weights, and writes the same rows of the result. Entry `(r, q)` of what it writes is therefore the product of row
  `5000 t + r` of `x` with column `q` of the weights, scaled by that row's factor: block `t` of ONE function of
  the three arrays (`scaledProduct`). Row `n` of the result lies in the block of point `n / 5000`, so the blocks
  fill the array and the array ends holding that function.
-/
import proofs.«429570_j84267258348157_3_alg».proof.Proof.Gen.KernelIdeal.Frame
import proofs.«429570_j84267258348157_3_alg».proof.Proof.KernelTerm
import proofs.«429570_j84267258348157_3_alg».proof.Proof.KernelPayload
import Idealize.ShloMosaic.Lib.Pipeline.Value
import Idealize.ShloMosaic.Lib.ValueIdx

noncomputable section

namespace Cert.KernelIdeal.HostTerm

open Cert.KernelIdeal Cert.KernelIdeal.Gen
open Idealize.ShloMosaic Idealize.ShloMosaic.TcCoe Idealize.SL.Sem
open Idealize.ShloMosaic.ValueIdx
open Idealize.ShloMosaic.Pipeline (Dat)

set_option maxRecDepth 16384

theorem zeroOffsets : (![0, 0] : Fin 2 → Nat) = fun _ => 0 := funext fun a => by fin_cases a <;> rfl

/-- The block indices at point `t`: the row-blocked windows are at row block `t`, the weights' window never moves. -/
theorem blockIndices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-! ## The windows' blocks of any three arrays -/

/-- Entry `(p, k)` of block `t` of an array of the shape of `x` is its entry `(5000 t + p, k)`. -/
theorem rowBlock_at (X : Vec Ideal S50000x64 .f32) (t : Fin cfg0.N) (p : Fin 5000) (k : Fin 64) (n : Fin 50000)
    (hn : n.val = t.val * 5000 + p.val) :
    ((cfg0.win 0).blk t).view.read (Elt Ideal) X (ix2 p k) = X (ix2 n k) := by
  obtain ⟨e0, e1, -⟩ := blockIndices t
  have h : ((cfg0.win 0).blk t).view.emb (ix2 p k) = ix2 n k := by
    funext a; apply Fin.ext
    match a with
    | ⟨0, _⟩ => show win0_0.index t (0 : Fin 2) * 5000 + 1 * p.val = n.val; rw [e0, hn]; omega
    | ⟨1, _⟩ => show win0_0.index t (1 : Fin 2) * 64 + 1 * k.val = k.val; rw [e1]; omega
  rw [View.read_apply, h]
  rfl

/-- The one block of an array of the shape of the weights is the array. -/
theorem weightBlock_at (Wt : Vec Ideal S64x64 .f32) (t : Fin cfg0.N) (k : Fin 64) (q : Fin 64) :
    ((cfg0.win 1).blk t).view.read (Elt Ideal) Wt (ix2 k q) = Wt (ix2 k q) := by
  obtain ⟨-, -, e2, e3, -⟩ := blockIndices t
  have h : ((cfg0.win 1).blk t).view.emb (ix2 k q) = ix2 k q := by
    funext a; apply Fin.ext
    match a with
    | ⟨0, _⟩ => show win0_1.index t (0 : Fin 2) * 64 + 1 * k.val = k.val; rw [e2]; omega
    | ⟨1, _⟩ => show win0_1.index t (1 : Fin 2) * 64 + 1 * q.val = q.val; rw [e3]; omega
  rw [View.read_apply, h]
  rfl

/-- Entry `(p, 0)` of block `t` of a column of 50000 numbers is its entry `(5000 t + p, 0)`. -/
theorem columnBlock_at (Dc : Vec Ideal S50000x1 .f32) (t : Fin cfg0.N) (p : Fin 5000) (n : Fin 50000)
    (hn : n.val = t.val * 5000 + p.val) :
    ((cfg0.win 2).blk t).view.read (Elt Ideal) Dc (ix2 p (0 : Fin 1)) = Dc (ix2 n (0 : Fin 1)) := by
  obtain ⟨-, -, -, -, e4, e5, -⟩ := blockIndices t
  have h : ((cfg0.win 2).blk t).view.emb (ix2 p (0 : Fin 1)) = ix2 n (0 : Fin 1) := by
    funext a; apply Fin.ext
    match a with
    | ⟨0, _⟩ => show win0_2.index t (0 : Fin 2) * 5000 + 1 * p.val = n.val; rw [e4, hn]; omega
    | ⟨1, _⟩ => show win0_2.index t (1 : Fin 2) * 1 + 1 * 0 = 0; rw [e5]
  rw [View.read_apply, h]
  rfl

/-! ## What a point writes back -/

/-- What the body stores, at any entry `j` of its block, from the three blocks it loaded. -/
theorem payload_entry (x0 : Vec Ideal S5000x64 .f32) (x1 : Vec Ideal S64x64 .f32) (x2 : Vec Ideal S5000x1 .f32) (j : S5000x64.Idx) :
    (k0_pay1 (F := Ideal) x0 x1 x2) j
      = (∑ k : Fin 64, x0 (ix2 (⟨(j 0).val, idx2_lt0 j⟩ : Fin 5000) k) * x1 (ix2 k (⟨(j 1).val, idx2_lt1 j⟩ : Fin 64)))
        * x2 (ix2 (⟨(j 0).val, idx2_lt0 j⟩ : Fin 5000) (0 : Fin 1)) := by
  obtain ⟨p, q, rfl⟩ : ∃ (p : Fin 5000) (q : Fin 64), j = ix2 p q := ⟨j 0, j 1, eq_ix2 j⟩
  exact payload_at x0 x1 x2 p q

/-- The scaled product at an index given by its two coordinates. -/
theorem scaledProduct_at (X : Vec Ideal S50000x64 .f32) (Wt : Vec Ideal S64x64 .f32) (Dc : Vec Ideal S50000x1 .f32)
    (n : Fin 50000) (q : Fin 64) :
    scaledProduct X Wt Dc (ix2 n q) = (∑ k : Fin 64, X (ix2 n k) * Wt (ix2 k q)) * Dc (ix2 n (0 : Fin 1)) := rfl

/-- For blocks `xb`, `wb`, `db` that are the windows' blocks at point `t` of arrays `X`, `Wt`, `Dc`, what the
    body stores is block `t` of the scaled product of the arrays. -/
theorem stored_eq_block (X : Vec Ideal S50000x64 .f32) (Wt : Vec Ideal S64x64 .f32) (Dc : Vec Ideal S50000x1 .f32)
    (t : Fin cfg0.N) (xb : Vec Ideal S5000x64 .f32) (wb : Vec Ideal S64x64 .f32) (db : Vec Ideal S5000x1 .f32)
    (hx : ∀ (p : Fin 5000) (k : Fin 64) (n : Fin 50000), n.val = t.val * 5000 + p.val → xb (ix2 p k) = X (ix2 n k))
    (hw : ∀ (k q : Fin 64), wb (ix2 k q) = Wt (ix2 k q))
    (hd : ∀ (p : Fin 5000) (n : Fin 50000), n.val = t.val * 5000 + p.val → db (ix2 p (0 : Fin 1)) = Dc (ix2 n (0 : Fin 1))) :
    (cfg0.win 3).cut (grid0.coords t) (k0_pay1 (F := Ideal) xb wb db)
      = ((cfg0.win 3).blk t).view.read (Elt Ideal) (scaledProduct X Wt Dc) := by
  funext j
  have hj0 : (j 0).val < 5000 := (j 0).isLt
  have hj1 : (j 1).val < 64 := (j 1).isLt
  obtain ⟨-, -, -, -, -, -, e6, e7⟩ := blockIndices t
  have hN : cfg0.N = 10 := N_0
  have ht : t.val < cfg0.N := t.isLt
  have hrow : t.val * 5000 + (j 0).val < 50000 := by omega
  -- the array index under entry `j` of block `t`
  have hemb : ((cfg0.win 3).blk t).view.emb j = ix2 (⟨t.val * 5000 + (j 0).val, hrow⟩ : Fin 50000) (⟨(j 1).val, hj1⟩ : Fin 64) := by
    funext a; apply Fin.ext
    match a with
    | ⟨0, _⟩ => show win0_3.index t (0 : Fin 2) * 5000 + 1 * (j 0).val = t.val * 5000 + (j 0).val; rw [e6]; omega
    | ⟨1, _⟩ => show win0_3.index t (1 : Fin 2) * 64 + 1 * (j 1).val = (j 1).val; rw [e7]; omega
  rw [View.read_apply, hemb]
  show (k0_pay1 (F := Ideal) xb wb db) j = scaledProduct X Wt Dc (ix2 (⟨t.val * 5000 + (j 0).val, hrow⟩ : Fin 50000) (⟨(j 1).val, hj1⟩ : Fin 64))
  rw [scaledProduct_at]
  refine (payload_entry xb wb db j).trans ?_
  exact congrArg₂ (· * ·)
    (Finset.sum_congr rfl fun k _ => congrArg₂ (· * ·) (hx ⟨(j 0).val, hj0⟩ k ⟨t.val * 5000 + (j 0).val, hrow⟩ rfl)
      (hw k ⟨(j 1).val, hj1⟩))
    (hd ⟨(j 0).val, hj0⟩ ⟨t.val * 5000 + (j 0).val, hrow⟩ rfl)

/-- What the body stores from the windows' blocks at point `t` of any three arrays is block `t` of their scaled product. -/
theorem stored_of_blocks (X : Vec Ideal S50000x64 .f32) (Wt : Vec Ideal S64x64 .f32) (Dc : Vec Ideal S50000x1 .f32) (t : Fin cfg0.N) :
    (cfg0.win 3).cut (grid0.coords t) (k0_pay1 (F := Ideal) (((cfg0.win 0).blk t).view.read (Elt Ideal) X)
        (((cfg0.win 1).blk t).view.read (Elt Ideal) Wt) (((cfg0.win 2).blk t).view.read (Elt Ideal) Dc))
      = ((cfg0.win 3).blk t).view.read (Elt Ideal) (scaledProduct X Wt Dc) :=
  stored_eq_block X Wt Dc t _ _ _ (fun p k n hn => rowBlock_at X t p k n hn) (fun k q => weightBlock_at Wt t k q)
    (fun p n hn => columnBlock_at Dc t p n hn)

/-! ## The cover -/

/-- An index of the result is in point `t`'s block iff each coordinate is in the block's range on its axis. -/
theorem mem_block (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v12).slice (win0_3.rect t)).set ↔ _
  rw [View.set_slice_whole, Rect.mem_set_unit]
  exact Iff.rfl

/-- Row `n` of the result is written by point `n / 5000`. -/
theorem covered (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  refine ⟨⟨(i 0).val / 5000, by omega⟩, flush0_3 _, ?_⟩
  obtain ⟨-, -, -, -, -, -, e6, e7⟩ := blockIndices ⟨(i 0).val / 5000, by omega⟩
  rw [mem_block]
  intro a
  match a with
  | ⟨0, _⟩ =>
    show win0_3.index ⟨(i 0).val / 5000, _⟩ (0 : Fin 2) * 5000 ≤ (i 0).val ∧ (i 0).val < win0_3.index ⟨(i 0).val / 5000, _⟩ (0 : Fin 2) * 5000 + 5000
    rw [e6]; dsimp only; omega
  | ⟨1, _⟩ =>
    show win0_3.index ⟨(i 0).val / 5000, _⟩ (1 : Fin 2) * 64 ≤ (i 1).val ∧ (i 1).val < win0_3.index ⟨(i 0).val / 5000, _⟩ (1 : Fin 2) * 64 + 64
    rw [e7]; omega

/-! ## The run's arrays -/

variable (m : (ℓ : Loc nD τ sig) → Buf (Elt Ideal) ℓ)

/-- WHAT POINT `t` WRITES BACK is block `t` of the scaled product of the three arrays as the region finds them. -/
theorem flushed_eq (c : Dev nD) (t : Fin cfg0.N) :
    (dats m 0 c).flushed 3 t
      = ((cfg0.win 3).blk t).view.read (Elt Ideal) (scaledProduct (V m c main_arg0) (V m c main_arg2) (V m c main_v11)) := by
  show (cfg0.win 3).cut (grid0.coords t) ((dats m 0 c).after 3 t) = _
  rw [after0_3]
  unfold out0_3
  rw [View.canon_unit_zero zeroOffsets]
  simp only [View.ld_unit_zero (S := S5000x64) zeroOffsets, View.ld_unit_zero (S := S64x64) zeroOffsets,
    View.ld_unit_zero (S := S5000x1) zeroOffsets]
  unfold iblk
  exact stored_of_blocks (V m c main_arg0) (V m c main_arg2) (V m c main_v11) t

/-- THE REGION'S ARRAY after the run: the scaled product of the three arrays as the region finds them. -/
theorem regionArray (c : Dev nD) :
    (dats m 0 c).arrAt 3 cfg0.N = scaledProduct (V m c main_arg0) (V m c main_arg2) (V m c main_v11) :=
  (dats m 0 c).arrAt_eq_of_cover 3 (scaledProduct (V m c main_arg0) (V m c main_arg2) (V m c main_v11))
    (fun t _ => flushed_eq m c t) covered

end Cert.KernelIdeal.HostTerm

end
-- ==== Proof.KernelTail.lean ====
/-
  What the program's operations after the region leave in the result buffer.

  They read the region's array, the two rows of the edge list and the inverse square roots of the degrees (left by
  the operations before the region) and the bias (an argument); none of them writes one of those. Run in order
  from any contents of those buffers they gather the rows named by the wrapped source words, add them into the rows
  named by the target words, add the array itself, scale by the row factors and add the bias: the term `tail`.
-/
import proofs.«429570_j84267258348157_3_alg».proof.Proof.Gen.KernelIdeal.Frame
import proofs.«429570_j84267258348157_3_alg».proof.Proof.KernelTerm
import proofs.«429570_j84267258348157_3_alg».proof.Proof.KernelHost
import Idealize.ShloMosaic.Lib.StableHlo.Run

noncomputable section

namespace Cert.KernelIdeal.HostTerm

open Cert.KernelIdeal Cert.KernelIdeal.Gen
open Idealize.ShloMosaic Idealize.ShloMosaic.TcCoe Idealize.SL.Sem
open Idealize.ShloMosaic.ValueIdx
open Idealize.ShloMosaic.StableHlo

variable {F : FTy → Type} [FloatOps F]

/-- The later operations, from any buffer contents `W` whose five buffers they read hold the array `Y`, the two
    rows of `ei`, the inverse square roots of `ei`'s degrees and the bias `b`. -/
theorem after_laterOps (W : Valuation τ sig (Elt F)) (Y : (⟨S50000x64, .bf16⟩ : BufTy).Contents (Elt F))
    (ei : (⟨S2x800000, .i32⟩ : BufTy).Contents (Elt F)) (b : (⟨S64, .f32⟩ : BufTy).Contents (Elt F))
    (hY : W (Proc.devRef .tc main_v12) = Y) (hsrc : W (Proc.devRef .tc main_v1) = srcRow ei)
    (hdst : W (Proc.devRef .tc main_v3) = dstRow ei) (hd : W (Proc.devRef .tc main_v10) = invSqrtDeg ei)
    (hb : W (Proc.devRef .tc main_arg3) = b) :
    StableHlo.after hostOps1 W (Proc.devRef .tc main_v31) = tail Y ei b := by
  after_results_simp
  rw [hY, hsrc, hdst, hd, hb]
  rfl

variable (m : (ℓ : Loc nD τ sig) → Buf (Elt F) ℓ)

/-- THE RESULT BUFFER after the run, from the region's array as the run leaves it and the arguments as launched. -/
theorem result_eq_tail (c : Dev nD) :
    Pipeline.afterTail₀ cfgs (dats m) 0 (V0 m) [hostOps1] c main_v31
      = tail ((dats m 0 c).arrAt 3 cfg0.N) (m ((c.tc : Thread nD τ).loc main_arg1)) (m ((c.tc : Thread nD τ).loc main_arg3)) := by
  unfold Pipeline.afterTail₀
  show StableHlo.after hostOps1 _ (Proc.devRef .tc main_v31) = _
  refine after_laterOps _ _ _ _ (Pipeline.withArrays_arr spec0 launch0.win.arr_inj c _ _ 3) ?_ ?_ ?_ ?_
  · exact (Pipeline.withArrays_of_ne _ c (V0 m c) _ main_v1 (by exact (by decide : ∀ w, Pipeline.arrRef spec0 w ≠ main_v1))).trans
      (entry_sources m c)
  · exact (Pipeline.withArrays_of_ne _ c (V0 m c) _ main_v3 (by exact (by decide : ∀ w, Pipeline.arrRef spec0 w ≠ main_v3))).trans
      (entry_targets m c)
  · exact (Pipeline.withArrays_of_ne _ c (V0 m c) _ main_v10 (by exact (by decide : ∀ w, Pipeline.arrRef spec0 w ≠ main_v10))).trans
      (entry_invSqrtDeg m c)
  · exact (Pipeline.withArrays_of_ne _ c (V0 m c) _ main_arg3 (by exact (by decide : ∀ w, Pipeline.arrRef spec0 w ≠ main_arg3))).trans
      (V_main_arg3 m c)

end Cert.KernelIdeal.HostTerm

end
-- ==== Proof.KernelRun.lean ====
/-
  The run of the kernel's program, read: every weakly fair execution ends with the result buffer at `out` of the
  four argument arrays as launched, and the arguments unchanged.

  The frame run leaves the region's array at what the ten write-backs made of it and every other buffer
  at what the later operations computed from that. The array is the scaled product of `x`, the weights and the
  column of inverse square roots of the degrees; the later operations turn it into `tail` of it; and `x`, the
  weights and the edge list reach the region as launched. Together: `out`.
-/
import proofs.«429570_j84267258348157_3_alg».proof.Proof.Gen.KernelIdeal.Frame
import proofs.«429570_j84267258348157_3_alg».proof.Proof.KernelTerm
import proofs.«429570_j84267258348157_3_alg».proof.Proof.KernelHost
import proofs.«429570_j84267258348157_3_alg».proof.Proof.KernelBlocks
import proofs.«429570_j84267258348157_3_alg».proof.Proof.KernelTail

noncomputable section

namespace Cert.KernelIdeal.HostTerm

open Cert.KernelIdeal Cert.KernelIdeal.Gen
open Idealize.ShloMosaic Idealize.ShloMosaic.TcCoe Idealize.SL.Sem
open Idealize.ShloMosaic.ValueIdx
open Idealize.ShloMosaic.Pipeline (Dat)

set_option maxRecDepth 16384

/-- The result buffer after the later operations, as a term of the four arguments. -/
theorem result_eq_out (m : (ℓ : Loc nD τ sig) → Buf (Elt Ideal) ℓ) (c : Dev nD) :
    Pipeline.afterTail₀ cfgs (dats m) 0 (V0 m) [hostOps1] c main_v31
      = out (m ((c.tc : Thread nD τ).loc main_arg0)) (m ((c.tc : Thread nD τ).loc main_arg1))
          (m ((c.tc : Thread nD τ).loc main_arg2)) (m ((c.tc : Thread nD τ).loc main_arg3)) := by
  refine (result_eq_tail m c).trans ?_
  rw [regionArray m c, V_main_arg0 m c, V_main_arg2 m c, entry_invSqrtDegCol m c]
  rfl

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v31)
          = out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v31 (Pipeline.mem_restRefs_of main_v31 (by decide) (by decide))).trans (result_eq_out m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c))⟩)
    (run_main m ρ)

end Cert.KernelIdeal.HostTerm

end
-- ==== Proof.LibClampIx.lean ====
/-! # A gather's start index: a 32-bit word read signed and clamped into an axis

StableHLO's gather reads each component of a start index as a signed integer and clamps it into
`[0, size − slice size]`. On an axis of `U` positions whose slice has one position that is
`min (max w 0) (U − 1)`: `Int.toNat` sends the negative words to `0`, `min` cuts at `U − 1`. This file names
that position as an element of `Fin U`, so that two programs gathering along the same axis are seen to read
the same place, and records two facts about words that already lie on the axis. -/

namespace Cert.Hand

/-- The position on an axis of `U` places that the word `w`, read signed, is clamped to. -/
def clampIx (U : Nat) (hU : 0 < U) (w : BitVec 32) : Fin U := ⟨min w.toInt.toNat (U - 1), by omega⟩

theorem clampIx_val (U : Nat) (hU : 0 < U) (w : BitVec 32) :
    (clampIx U hU w).val = min w.toInt.toNat (U - 1) := rfl

/-- A word that lies on the axis is its own clamped position. -/
theorem clampIx_val_of_mem (U : Nat) (hU : 0 < U) (w : BitVec 32) (h0 : 0 ≤ w.toInt) (hlt : w.toInt < (U : Int)) :
    (clampIx U hU w).val = w.toInt.toNat := by
  rw [clampIx_val]
  have : w.toInt.toNat < U := by omega
  omega

/-- As an integer, too. -/
theorem clampIx_val_int_of_mem (U : Nat) (hU : 0 < U) (w : BitVec 32) (h0 : 0 ≤ w.toInt) (hlt : w.toInt < (U : Int)) :
    ((clampIx U hU w).val : Int) = w.toInt := by
  rw [clampIx_val_of_mem U hU w h0 hlt]; omega

/-- A word that is not negative as a signed integer is not signed-below zero. -/
theorem slt_zero_of_nonneg (w : BitVec 32) (h0 : 0 ≤ w.toInt) : BitVec.slt w 0#32 = false := by
  simp only [BitVec.slt, BitVec.toInt_zero]
  exact decide_eq_false (by omega)

/-- The normalisation of a possibly negative position — add the axis' length to a word below zero — leaves a
    word that is not negative alone. -/
theorem wrap_of_nonneg (w u : BitVec 32) (h0 : 0 ≤ w.toInt) : (if BitVec.slt w 0#32 then w + u else w) = w := by
  rw [slt_zero_of_nonneg w h0]; rfl

end Cert.Hand
-- ==== Proof.Spec.lean ====
/-
  The mathematics of a graph-convolution layer with symmetric normalisation, as both programs compute it.

  An edge list is two rows of 800000 words: row 0 the source words, row 1 the target words. A node is a number
  below 50000. A scatter reads a target word signed and unclamped: an edge whose target word is not a node is
  dropped. A gather first adds 50000 to a negative word, then clamps the word, read signed, into the nodes
  (`rowOf`). The in-edges of node `i` are the edges whose target word is exactly `i`; its degree is their number
  plus one for the node's own loop, and `dinv i` is the inverse square root of the degree, a positive real.
  With `xw = x · W`, the kernel's program computes, at node `i` and column `c`,
    `((∑ over in-edges e, xw (rowOf (src e)) c · dinv (rowOf (src e))) + xw i c · dinv i) · dinv i + b c`
  and the reference
    `(∑ over in-edges e, xw (rowOf (src e)) c · (dinv (rowOf (src e)) · dinv (rowOf (dst e)))) + xw i c · (dinv i · dinv i) + b c`,
  where on an in-edge of `i` the clamped target is `i` itself.
-/
import proofs.«429570_j84267258348157_3_alg».proof.Proof.LibClampIx
import Idealize.ShloMosaic.PureOps.Ideal
import Idealize.ShloMosaic.Lib.ValueIdx
import Idealize.ShloMosaic.Lib.IdealHost

noncomputable section

namespace Cert.Gcn

open Idealize.ShloMosaic Idealize.ShloMosaic.ValueIdx Cert.Hand

/-- An edge list: two rows of words. -/
abbrev Edges := (⟨2, ![2, 800000]⟩ : Shape).Idx → BitVec 32

/-- The source word of edge `e`. -/
def srcWord (ei : Edges) (e : Fin 800000) : BitVec 32 := ei (ix2 (0 : Fin 2) e)
/-- The target word of edge `e`. -/
def dstWord (ei : Edges) (e : Fin 800000) : BitVec 32 := ei (ix2 (1 : Fin 2) e)

/-- The word a gather looks up in place of `w`: the number of nodes added to a negative word. -/
def wrapWord (w : BitVec 32) : BitVec 32 := Scalar.select (IntOp.cmpi .slt w 0#32) (IntOp.addi w 50000#32) w

/-- The node a gather reads for the word `w`: the wrapped word, read signed, clamped into the nodes. -/
def rowOf (w : BitVec 32) : Fin 50000 := clampIx 50000 (by decide) (wrapWord w)

/-- A word that is not negative is looked up as it is. -/
theorem wrapWord_of_nonneg (w : BitVec 32) (h0 : 0 ≤ w.toInt) : wrapWord w = w := by
  show (if BitVec.ofBool (w.slt 0#32) = 1 then w + 50000#32 else w) = w
  rw [slt_zero_of_nonneg w h0]
  rfl

/-- A word that names a node is read at that node. -/
theorem rowOf_of_toInt (w : BitVec 32) (i : Fin 50000) (h : w.toInt = (i.val : Int)) : rowOf w = i := by
  have hi := i.isLt
  have h0 : 0 ≤ w.toInt := by omega
  unfold rowOf
  rw [wrapWord_of_nonneg w h0]
  refine Fin.ext ?_
  rw [clampIx_val_of_mem 50000 (by decide) w h0 (by omega)]
  omega

/-- The word of a node's own number, read signed, is that number. -/
theorem toInt_ofNat_node (n : Fin 50000) : (BitVec.ofNat 32 n.val).toInt = (n.val : Int) := by
  have hn := n.isLt
  have hmod : n.val % 2 ^ 32 = n.val := Nat.mod_eq_of_lt (by omega)
  rw [BitVec.toInt_eq_toNat_cond, BitVec.toNat_ofNat, hmod, if_pos (by omega)]

/-- The word of a node's own number is read at that node. -/
theorem rowOf_ofNat_node (n : Fin 50000) : rowOf (BitVec.ofNat 32 n.val) = n :=
  rowOf_of_toInt _ n (toInt_ofNat_node n)

/-- The edges whose target word is exactly node `i`. -/
def inEdges (ei : Edges) (i : Fin 50000) : Finset (Fin 800000) :=
  Finset.univ.filter (fun e => (dstWord ei e).toInt = (i.val : Int))

theorem mem_inEdges (ei : Edges) (i : Fin 50000) (e : Fin 800000) :
    e ∈ inEdges ei i ↔ (dstWord ei e).toInt = (i.val : Int) := by
  unfold inEdges; rw [Finset.mem_filter]; exact ⟨fun h => h.2, fun h => ⟨Finset.mem_univ _, h⟩⟩

/-- On an in-edge of `i` the gather of the target word reads node `i`. -/
theorem rowOf_dst_of_mem (ei : Edges) (i : Fin 50000) (e : Fin 800000) (he : e ∈ inEdges ei i) :
    rowOf (dstWord ei e) = i := rowOf_of_toInt _ i ((mem_inEdges ei i e).1 he)

/-- The degree of node `i`: its in-edges and its own loop. -/
def deg (ei : Edges) (i : Fin 50000) : ℝ := (((inEdges ei i).card + 1 : ℕ) : ℝ)

theorem deg_pos (ei : Edges) (i : Fin 50000) : 0 < deg ei i := by
  unfold deg; exact_mod_cast Nat.succ_pos _

/-- The inverse square root of the degree, on the extended reals. -/
def dinv (ei : Edges) (i : Fin 50000) : EReal := Ideal.rsqrt ((deg ei i : ℝ) : EReal)

/-- It is a real number. -/
theorem dinv_eq_coe (ei : Edges) (i : Fin 50000) : dinv ei i = (((Real.sqrt (deg ei i))⁻¹ : ℝ) : EReal) := by
  have hp := deg_pos ei i
  unfold dinv
  show (if deg ei i < 0 then (⊥ : EReal) else if deg ei i = 0 then ⊤ else (((Real.sqrt (deg ei i))⁻¹ : ℝ) : EReal)) = _
  rw [if_neg (not_lt.2 hp.le), if_neg (ne_of_gt hp)]

/-- A finite sum of reals, read on the extended reals, is the sum of the summands read there. -/
theorem coe_sum {ι : Type} (s : Finset ι) (f : ι → ℝ) :
    ((∑ e ∈ s, f e : ℝ) : EReal) = ∑ e ∈ s, ((f e : ℝ) : EReal) := by
  classical
  induction s using Finset.induction_on with
  | empty => simp
  | insert a s ha ih => rw [Finset.sum_insert ha, Finset.sum_insert ha, EReal.coe_add, ih]

/-- A sum of ones over a finite set is its number of elements. -/
theorem sum_ones {ι : Type} (s : Finset ι) : ∑ _e ∈ s, (1 : EReal) = ((s.card : ℝ) : EReal) := by
  have h : ∑ _e ∈ s, (1 : EReal) = ∑ _e ∈ s, (((1 : ℝ) : ℝ) : EReal) := rfl
  rw [h, ← coe_sum, Finset.sum_const, nsmul_eq_mul, mul_one]

/-- The product `x · W` at row `n`, column `c`. -/
def xw (x : (⟨2, ![50000, 64]⟩ : Shape).Idx → EReal) (w : (⟨2, ![64, 64]⟩ : Shape).Idx → EReal) (n : Fin 50000)
    (c : Fin 64) : EReal := ∑ k : Fin 64, x (ix2 n k) * w (ix2 k c)

/-- The layer as the kernel's program computes it. -/
def kernelForm (x : (⟨2, ![50000, 64]⟩ : Shape).Idx → EReal) (ei : Edges) (w : (⟨2, ![64, 64]⟩ : Shape).Idx → EReal)
    (b : (⟨1, ![64]⟩ : Shape).Idx → EReal) (i : Fin 50000) (c : Fin 64) : EReal :=
  ((0 + ∑ e ∈ inEdges ei i, xw x w (rowOf (srcWord ei e)) c * dinv ei (rowOf (srcWord ei e)))
      + xw x w i c * dinv ei i) * dinv ei i + b (ix1 c)

/-- The layer as the reference computes it. -/
def referenceForm (x : (⟨2, ![50000, 64]⟩ : Shape).Idx → EReal) (ei : Edges) (w : (⟨2, ![64, 64]⟩ : Shape).Idx → EReal)
    (b : (⟨1, ![64]⟩ : Shape).Idx → EReal) (i : Fin 50000) (c : Fin 64) : EReal :=
  (0 + (∑ e ∈ inEdges ei i, xw x w (rowOf (srcWord ei e)) c
          * (dinv ei (rowOf (srcWord ei e)) * dinv ei (rowOf (dstWord ei e)))
        + xw x w i c * (dinv ei i * dinv ei i))) + b (ix1 c)

end Cert.Gcn

end
-- ==== Proof.KernelWords.lean ====
/-
  The kernel's program before its region, read at an index: the two rows of the edge list are the source and the
  target words, and the words handed to the gather are the wrapped source words.
-/
import proofs.«429570_j84267258348157_3_alg».proof.Proof.KernelTerm
import proofs.«429570_j84267258348157_3_alg».proof.Proof.Spec
import Idealize.ShloMosaic.Lib.Pipeline.Value

noncomputable section

namespace Cert.KernelIdeal.AtIndex

open Cert.KernelIdeal Cert.KernelIdeal.Gen Cert.KernelIdeal.HostTerm Cert.Gcn
open Idealize.ShloMosaic Idealize.ShloMosaic.TcCoe Idealize.ShloMosaic.ValueIdx

variable (ei : (⟨S2x800000, .i32⟩ : BufTy).Contents (Elt Ideal))

/-- Row 0 of the edge list at `e` is edge `e`'s source word. -/
theorem srcRow_apply (e : Fin 800000) : srcRow (F := Ideal) ei (ix1 e) = srcWord ei e := by
  unfold srcRow
  refine (shapeCast_apply _ shapeCasts_S1x800000_S800000 (ix1 e) (ix2 (0 : Fin 1) e)
    (by rewrite [Shape.rowMajor_val_two, Shape.rowMajor_val_one]; show 0 * 800000 + e.val = e.val; omega)).trans ?_
  exact extractStridedSlice_apply ![0, 0] ei slices_S2x800000_S1x800000_0_0 (ix2 (0 : Fin 1) e) (ix2 (0 : Fin 2) e)
    (fun a => match a with
      | ⟨0, _⟩ => by show (0 : ℕ) = 0 + 0; rfl
      | ⟨1, _⟩ => by show e.val = 0 + e.val; omega)

/-- Row 1 of the edge list at `e` is edge `e`'s target word. -/
theorem dstRow_apply (e : Fin 800000) : dstRow (F := Ideal) ei (ix1 e) = dstWord ei e := by
  unfold dstRow
  refine (shapeCast_apply _ shapeCasts_S1x800000_S800000 (ix1 e) (ix2 (0 : Fin 1) e)
    (by rewrite [Shape.rowMajor_val_two, Shape.rowMajor_val_one]; show 0 * 800000 + e.val = e.val; omega)).trans ?_
  exact extractStridedSlice_apply ![1, 0] ei slices_S2x800000_S1x800000_1_0 (ix2 (0 : Fin 1) e) (ix2 (1 : Fin 2) e)
    (fun a => match a with
      | ⟨0, _⟩ => by show (1 : ℕ) = 1 + 0; rfl
      | ⟨1, _⟩ => by show e.val = 0 + e.val; omega)

/-- A vector laid out as a column reads the vector's element at the row. -/
theorem col_apply {α : Type} (v : S800000.Idx → α) (e : Fin 800000) :
    broadcastInDim S800000x1 ![0] bcast_S800000_S800000x1_0 v (ix2 e (0 : Fin 1)) = v (ix1 e) :=
  broadcastInDim_apply _ bcast_S800000_S800000x1_0 v (ix2 e (0 : Fin 1)) (ix1 e) (fun a => match a with
    | ⟨0, _⟩ => by show e.val = if (800000 : Nat) = 1 then 0 else e.val; rw [if_neg (by decide)])

/-- The words handed to the gather are the wrapped source words. -/
theorem wrappedSrc_apply (e : Fin 800000) : wrappedSrc (F := Ideal) ei (ix1 e) = wrapWord (srcWord ei e) := by
  unfold wrappedSrc
  show Scalar.select (IntOp.cmpi .slt (srcRow (F := Ideal) ei (ix1 e))
      (broadcastInDim S800000 ![] bcast_S_S800000 (constantI S_ 32 0#32) (ix1 e)))
    (IntOp.addi (srcRow (F := Ideal) ei (ix1 e)) (broadcastInDim S800000 ![] bcast_S_S800000 (constantI S_ 32 50000#32) (ix1 e)))
    (srcRow (F := Ideal) ei (ix1 e)) = _
  rw [srcRow_apply, broadcastInDim_scalar_apply, broadcastInDim_scalar_apply]
  rfl

end Cert.KernelIdeal.AtIndex

end
-- ==== Proof.LibScatterVec.lean ====
/-
  A general lemma about the host's accumulating scatter on the extended reals, for a VECTOR operand.

  A scatter-add of scalars — `stablehlo.scatter` with an `add` body, no update window axis, `inserted_window_dims = [0]`,
  `scatter_dims_to_operand_dims = [0]`, `index_vector_dim = 1`, on an operand of shape `[S]`, scatter indices `[R, 1]`
  and updates `[R]` — adds update `r` to element `idx r` of the operand (jax's `segment_sum` of a vector: a count, when
  the updates are ones). The index word is read signed and is not clamped: an update whose word is negative or at
  least `S` lands nowhere. On the extended reals the sum is exact and order-free, so the result at `s` is the operand
  there plus the sum of the updates over the rows whose index word is `s`.
-/
import Idealize.ShloMosaic.PureOps.Ideal
import Idealize.ShloMosaic.Lib.ValueIdx

noncomputable section

namespace Cert.LibScatterVec

open Idealize.ShloMosaic Idealize.ShloMosaic.ValueIdx

/-- A rank-1 index set is its one coordinate's. -/
def idxEquiv1 {n : ℕ} : (⟨1, ![n]⟩ : Shape).Idx ≃ Fin n where
  toFun j := j 0
  invFun a := ix1 a
  left_inv j := (eq_ix1 j).symm
  right_inv _ := rfl

/-- A sum over a rank-1 index set is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- On the operand's one axis the window starts at the index word of the update, read signed. -/
theorem vec_start {S R w : ℕ}
    (wf : ScatterDims.WF (⟨1, ![S]⟩ : Shape) ⟨2, ![R, 1]⟩ ⟨1, ![R]⟩ [] [0] [0] 1)
    (idx : IVec ⟨2, ![R, 1]⟩ w) (r : Fin R) :
    (⟨[], [0], [0], 1, wf⟩ : ScatterDims ⟨1, ![S]⟩ ⟨2, ![R, 1]⟩ ⟨1, ![R]⟩).start (ix1 r) idx 0
      = (idx (ix2 r (0 : Fin 1))).toInt := by
  unfold ScatterDims.start
  rw [dif_pos (show (0 : Fin 1) ∈ [(0 : Fin 1)] from List.mem_singleton.mpr rfl)]
  congr 2
  funext b
  refine Fin.ext ?_
  match b with
  | ⟨0, _⟩ => rfl
  | ⟨1, _⟩ => rfl

/-- The operand's one axis is an inserted axis: the window coordinate there is 0. -/
theorem vec_window {S R : ℕ}
    (wf : ScatterDims.WF (⟨1, ![S]⟩ : Shape) ⟨2, ![R, 1]⟩ ⟨1, ![R]⟩ [] [0] [0] 1) (r : Fin R) :
    (⟨[], [0], [0], 1, wf⟩ : ScatterDims ⟨1, ![S]⟩ ⟨2, ![R, 1]⟩ ⟨1, ![R]⟩).window (ix1 r) 0 = 0 := by
  unfold ScatterDims.window
  exact dif_neg (show ¬ (0 : Fin 1) ∈ (List.finRange 1).filter (· ∉ [(0 : Fin 1)]) by decide)

/-- Where an update lands on a vector operand: if the window starts at `t` with window coordinate 0, the update
    goes to `s` exactly when `t = s` (otherwise it goes elsewhere or is dropped). -/
theorem resultIdx_eq_some_ix1_iff {S w : ℕ} {si u : Shape} (d : ScatterDims ⟨1, ![S]⟩ si u) (j : u.Idx)
    (idx : IVec si w) (t : Int) (h0 : d.start j idx 0 = t) (hw : d.window j 0 = 0) (s : Fin S) :
    d.resultIdx? j idx = some (ix1 s) ↔ t = (s.val : Int) := by
  have hs := s.isLt
  unfold ScatterDims.resultIdx?
  constructor
  · intro h
    split_ifs at h with hall
    have hfun := Option.some.inj h
    have e0 : (d.start j idx 0 + (d.window j 0 : ℕ)).toNat = s.val := congrArg (fun f => (f 0).val) hfun
    have b0 : 0 ≤ d.start j idx 0 + (d.window j 0 : ℕ) := (hall 0).1
    rw [h0, hw] at e0 b0
    omega
  · intro ht
    have hall : ∀ a, 0 ≤ d.start j idx a + d.window j a
        ∧ d.start j idx a + d.window j a < (⟨1, ![S]⟩ : Shape).size a := by
      intro a
      match a with
      | ⟨0, _⟩ =>
        show 0 ≤ d.start j idx 0 + (d.window j 0 : ℕ) ∧ d.start j idx 0 + (d.window j 0 : ℕ) < (S : Int)
        rw [h0, hw]; omega
    rw [dif_pos hall]
    congr 1
    funext a
    refine Fin.ext ?_
    match a with
    | ⟨0, _⟩ =>
      show (d.start j idx 0 + (d.window j 0 : ℕ)).toNat = s.val
      rw [h0, hw]; omega

/-- Where an update of a vector scatter lands: update `r` goes to operand element `s` exactly when its index word,
    read signed, is `s`. -/
theorem vec_resultIdx_eq_some_iff {S R w : ℕ}
    (wf : ScatterDims.WF (⟨1, ![S]⟩ : Shape) ⟨2, ![R, 1]⟩ ⟨1, ![R]⟩ [] [0] [0] 1)
    (idx : IVec ⟨2, ![R, 1]⟩ w) (r : Fin R) (s : Fin S) :
    (⟨[], [0], [0], 1, wf⟩ : ScatterDims ⟨1, ![S]⟩ ⟨2, ![R, 1]⟩ ⟨1, ![R]⟩).resultIdx? (ix1 r) idx = some (ix1 s)
      ↔ (idx (ix2 r (0 : Fin 1))).toInt = (s.val : Int) :=
  resultIdx_eq_some_ix1_iff _ _ idx _ (vec_start wf idx r) (vec_window wf r) s

/-- A vector scatter-add read at `s`: the operand there plus the updates summed over the rows whose index word, read
    signed, is `s`. -/
theorem hostScatterAdd_vec_apply {S R w : ℕ}
    (wf : ScatterDims.WF (⟨1, ![S]⟩ : Shape) ⟨2, ![R, 1]⟩ ⟨1, ![R]⟩ [] [0] [0] 1)
    (x : (⟨1, ![S]⟩ : Shape).Idx → EReal) (idx : IVec ⟨2, ![R, 1]⟩ w) (upd : (⟨1, ![R]⟩ : Shape).Idx → EReal)
    (s : Fin S) :
    Ideal.hostScatterAdd (⟨[], [0], [0], 1, wf⟩ : ScatterDims ⟨1, ![S]⟩ ⟨2, ![R, 1]⟩ ⟨1, ![R]⟩) x idx upd (ix1 s)
      = x (ix1 s)
        + ∑ r ∈ Finset.univ.filter (fun r : Fin R => (idx (ix2 r (0 : Fin 1))).toInt = (s.val : Int)), upd (ix1 r) := by
  unfold Ideal.hostScatterAdd
  congr 1
  rw [Finset.sum_filter, sum_idx1, Finset.sum_filter]
  refine Finset.sum_congr rfl fun r _ => ?_
  by_cases hr : (idx (ix2 r (0 : Fin 1))).toInt = (s.val : Int)
  · rw [if_pos hr, if_pos ((vec_resultIdx_eq_some_iff wf idx r s).2 hr)]
  · rw [if_neg hr, if_neg fun h => hr ((vec_resultIdx_eq_some_iff wf idx r s).1 h)]

end Cert.LibScatterVec

end
-- ==== Proof.LibScatterRows.lean ====
/-
  A general lemma about the host's accumulating scatter on the extended reals.

  A ROW scatter-add — `stablehlo.scatter` with an `add` body, `update_window_dims = [1]`, `inserted_window_dims = [0]`,
  `scatter_dims_to_operand_dims = [0]`, `index_vector_dim = 1`, on an operand of shape `[S, C]`, scatter indices `[R, 1]`
  and updates `[R, C]` — adds row `r` of the updates to row `idx r` of the operand (jax's `segment_sum`). On the extended
  reals the sum is exact and order-free, so the result at `(s, c)` is the operand there plus the sum of the updates'
  column `c` over the rows whose index word is `s`; and when those rows are enumerated without repetition by
  `e : Fin P → Fin R`, that sum is `∑ p, upd (e p, c)`.
-/
import Idealize.ShloMosaic.PureOps.Ideal
import Idealize.ShloMosaic.Lib.ValueIdx

noncomputable section

namespace Cert.LibScatterRows

open Idealize.ShloMosaic Idealize.ShloMosaic.ValueIdx

/-- A sum over the members of a set of rows cut out by a predicate, re-indexed by an enumeration of that set:
    `e` is injective, lands in the set, and reaches every member. -/
theorem sum_filter_eq_sum_enum {R P : ℕ} {M : Type} [AddCommMonoid M] (pred : Fin R → Prop) [DecidablePred pred]
    (e : Fin P → Fin R) (hinj : Function.Injective e) (hmem : ∀ p, pred (e p)) (hsurj : ∀ r, pred r → ∃ p, e p = r)
    (f : Fin R → M) : ∑ r ∈ Finset.univ.filter pred, f r = ∑ p : Fin P, f (e p) := by
  have hset : Finset.univ.filter pred = Finset.univ.image e := by
    ext r
    simp only [Finset.mem_filter, Finset.mem_univ, true_and, Finset.mem_image]
    constructor
    · intro h; exact hsurj r h
    · rintro ⟨p, rfl⟩; exact hmem p
  rw [hset, Finset.sum_image (fun a _ b _ h => hinj h)]

/-- On operand axis 0 the window starts at the index word of the update's row, read signed. -/
theorem rows_start_zero {S C R w : ℕ}
    (wf : ScatterDims.WF (⟨2, ![S, C]⟩ : Shape) ⟨2, ![R, 1]⟩ ⟨2, ![R, C]⟩ [1] [0] [0] 1)
    (idx : IVec ⟨2, ![R, 1]⟩ w) (r : Fin R) (c' : Fin C) :
    (⟨[1], [0], [0], 1, wf⟩ : ScatterDims ⟨2, ![S, C]⟩ ⟨2, ![R, 1]⟩ ⟨2, ![R, C]⟩).start (ix2 r c') idx 0
      = (idx (ix2 r (0 : Fin 1))).toInt := by
  unfold ScatterDims.start
  rw [dif_pos (show (0 : Fin 2) ∈ [(0 : Fin 2)] from List.mem_singleton.mpr rfl)]
  congr 2
  funext b
  refine Fin.ext ?_
  match b with
  | ⟨0, _⟩ => rfl
  | ⟨1, _⟩ => rfl

/-- On operand axis 1 the window starts at 0. -/
theorem rows_start_one {S C R w : ℕ}
    (wf : ScatterDims.WF (⟨2, ![S, C]⟩ : Shape) ⟨2, ![R, 1]⟩ ⟨2, ![R, C]⟩ [1] [0] [0] 1)
    (idx : IVec ⟨2, ![R, 1]⟩ w) (r : Fin R) (c' : Fin C) :
    (⟨[1], [0], [0], 1, wf⟩ : ScatterDims ⟨2, ![S, C]⟩ ⟨2, ![R, 1]⟩ ⟨2, ![R, C]⟩).start (ix2 r c') idx 1 = 0 := by
  unfold ScatterDims.start
  rw [dif_neg (show ¬ (1 : Fin 2) ∈ [(0 : Fin 2)] by decide)]

/-- On operand axis 0, an inserted axis, the window coordinate is 0. -/
theorem rows_window_zero {S C R : ℕ}
    (wf : ScatterDims.WF (⟨2, ![S, C]⟩ : Shape) ⟨2, ![R, 1]⟩ ⟨2, ![R, C]⟩ [1] [0] [0] 1)
    (r : Fin R) (c' : Fin C) :
    (⟨[1], [0], [0], 1, wf⟩ : ScatterDims ⟨2, ![S, C]⟩ ⟨2, ![R, 1]⟩ ⟨2, ![R, C]⟩).window (ix2 r c') 0 = 0 := by
  unfold ScatterDims.window
  exact dif_neg (show ¬ (0 : Fin 2) ∈ (List.finRange 2).filter (· ∉ [(0 : Fin 2)]) by decide)

/-- On operand axis 1 the window coordinate is the update's column. -/
theorem rows_window_one {S C R : ℕ}
    (wf : ScatterDims.WF (⟨2, ![S, C]⟩ : Shape) ⟨2, ![R, 1]⟩ ⟨2, ![R, C]⟩ [1] [0] [0] 1)
    (r : Fin R) (c' : Fin C) :
    (⟨[1], [0], [0], 1, wf⟩ : ScatterDims ⟨2, ![S, C]⟩ ⟨2, ![R, 1]⟩ ⟨2, ![R, C]⟩).window (ix2 r c') 1 = c'.val := by
  unfold ScatterDims.window
  exact (dif_pos (show (1 : Fin 2) ∈ (List.finRange 2).filter (· ∉ [(0 : Fin 2)]) by decide)).trans rfl

/-- Where an update lands, on a rank-2 operand, from the window's start and coordinate on the two axes: if on axis 0
    the start is `t` and the window coordinate 0, and on axis 1 the start is 0 and the window coordinate `k`, the update
    goes to `(s, c)` exactly when `t = s` and `k = c` (otherwise it goes elsewhere or is dropped). -/
theorem resultIdx_eq_some_ix2_iff {S C w : ℕ} {si u : Shape} (d : ScatterDims ⟨2, ![S, C]⟩ si u) (j : u.Idx)
    (idx : IVec si w) (t : Int) (k : ℕ) (h00 : d.start j idx 0 = t) (h01 : d.start j idx 1 = 0)
    (hw0 : d.window j 0 = 0) (hw1 : d.window j 1 = k) (s : Fin S) (c : Fin C) :
    d.resultIdx? j idx = some (ix2 s c) ↔ t = (s.val : Int) ∧ k = c.val := by
  have hs := s.isLt
  have hc := c.isLt
  unfold ScatterDims.resultIdx?
  constructor
  · intro h
    split_ifs at h with hall
    have hfun := Option.some.inj h
    have e0 : (d.start j idx 0 + (d.window j 0 : ℕ)).toNat = s.val := congrArg (fun f => (f 0).val) hfun
    have e1 : (d.start j idx 1 + (d.window j 1 : ℕ)).toNat = c.val := congrArg (fun f => (f 1).val) hfun
    have b0 : 0 ≤ d.start j idx 0 + (d.window j 0 : ℕ) := (hall 0).1
    have b1 : 0 ≤ d.start j idx 1 + (d.window j 1 : ℕ) := (hall 1).1
    rw [h00, hw0] at e0 b0
    rw [h01, hw1] at e1 b1
    constructor <;> omega
  · rintro ⟨ht, hk⟩
    have hall : ∀ a, 0 ≤ d.start j idx a + d.window j a
        ∧ d.start j idx a + d.window j a < (⟨2, ![S, C]⟩ : Shape).size a := by
      intro a
      match a with
      | ⟨0, _⟩ =>
        show 0 ≤ d.start j idx 0 + (d.window j 0 : ℕ) ∧ d.start j idx 0 + (d.window j 0 : ℕ) < (S : Int)
        rw [h00, hw0]; omega
      | ⟨1, _⟩ =>
        show 0 ≤ d.start j idx 1 + (d.window j 1 : ℕ) ∧ d.start j idx 1 + (d.window j 1 : ℕ) < (C : Int)
        rw [h01, hw1]; omega
    rw [dif_pos hall]
    congr 1
    funext a
    refine Fin.ext ?_
    match a with
    | ⟨0, _⟩ =>
      show (d.start j idx 0 + (d.window j 0 : ℕ)).toNat = s.val
      rw [h00, hw0]; omega
    | ⟨1, _⟩ =>
      show (d.start j idx 1 + (d.window j 1 : ℕ)).toNat = c.val
      rw [h01, hw1]; omega

/-- Where an update of a row scatter lands: the update at row `r`, column `c'` goes to operand index `(s, c)` exactly
    when the row's index word, read signed, is `s` and the columns agree. -/
theorem rows_resultIdx_eq_some_iff {S C R w : ℕ}
    (wf : ScatterDims.WF (⟨2, ![S, C]⟩ : Shape) ⟨2, ![R, 1]⟩ ⟨2, ![R, C]⟩ [1] [0] [0] 1)
    (idx : IVec ⟨2, ![R, 1]⟩ w) (r : Fin R) (c' : Fin C) (s : Fin S) (c : Fin C) :
    (⟨[1], [0], [0], 1, wf⟩ : ScatterDims ⟨2, ![S, C]⟩ ⟨2, ![R, 1]⟩ ⟨2, ![R, C]⟩).resultIdx? (ix2 r c') idx
        = some (ix2 s c)
      ↔ (idx (ix2 r (0 : Fin 1))).toInt = (s.val : Int) ∧ c' = c := by
  rw [resultIdx_eq_some_ix2_iff _ _ idx _ _ (rows_start_zero wf idx r c') (rows_start_one wf idx r c')
    (rows_window_zero wf r c') (rows_window_one wf r c') s c, Fin.ext_iff]

/-- A row scatter-add read at `(s, c)`: the operand there plus the updates' column `c` summed over the rows whose index
    word, read signed, is `s`. -/
theorem hostScatterAdd_rows_apply {S C R w : ℕ}
    (wf : ScatterDims.WF (⟨2, ![S, C]⟩ : Shape) ⟨2, ![R, 1]⟩ ⟨2, ![R, C]⟩ [1] [0] [0] 1)
    (x : (⟨2, ![S, C]⟩ : Shape).Idx → EReal) (idx : IVec ⟨2, ![R, 1]⟩ w) (upd : (⟨2, ![R, C]⟩ : Shape).Idx → EReal)
    (s : Fin S) (c : Fin C) :
    Ideal.hostScatterAdd (⟨[1], [0], [0], 1, wf⟩ : ScatterDims ⟨2, ![S, C]⟩ ⟨2, ![R, 1]⟩ ⟨2, ![R, C]⟩) x idx upd (ix2 s c)
      = x (ix2 s c)
        + ∑ r ∈ Finset.univ.filter (fun r : Fin R => (idx (ix2 r (0 : Fin 1))).toInt = (s.val : Int)), upd (ix2 r c) := by
  unfold Ideal.hostScatterAdd
  congr 1
  rw [Finset.sum_filter, sum_idx2, Finset.sum_filter]
  refine Finset.sum_congr rfl fun r _ => ?_
  by_cases hr : (idx (ix2 r (0 : Fin 1))).toInt = (s.val : Int)
  · rw [if_pos hr, Finset.sum_eq_single c]
    · exact if_pos ((rows_resultIdx_eq_some_iff wf idx r c s c).2 ⟨hr, rfl⟩)
    · intro c' _ hne
      exact if_neg fun h => hne ((rows_resultIdx_eq_some_iff wf idx r c' s c).1 h).2
    · intro hc
      exact absurd (Finset.mem_univ c) hc
  · rw [if_neg hr]
    exact Finset.sum_eq_zero fun c' _ => if_neg fun h => hr ((rows_resultIdx_eq_some_iff wf idx r c' s c).1 h).1

/-- The same with the rows of segment `s` enumerated: if row `r`'s index word is the natural number `seg r`, and `e`
    lists the rows with `seg r = s` once each, the result at `(s, c)` is the operand there plus `∑ p, upd (e p, c)`. -/
theorem hostScatterAdd_rows_enum {S C R P w : ℕ}
    (wf : ScatterDims.WF (⟨2, ![S, C]⟩ : Shape) ⟨2, ![R, 1]⟩ ⟨2, ![R, C]⟩ [1] [0] [0] 1)
    (x : (⟨2, ![S, C]⟩ : Shape).Idx → EReal) (idx : IVec ⟨2, ![R, 1]⟩ w) (upd : (⟨2, ![R, C]⟩ : Shape).Idx → EReal)
    (seg : Fin R → ℕ) (hseg : ∀ r : Fin R, (idx (ix2 r (0 : Fin 1))).toInt = (seg r : Int))
    (s : Fin S) (c : Fin C) (e : Fin P → Fin R) (hinj : Function.Injective e) (hmem : ∀ p, seg (e p) = s.val)
    (hsurj : ∀ r, seg r = s.val → ∃ p, e p = r) :
    Ideal.hostScatterAdd (⟨[1], [0], [0], 1, wf⟩ : ScatterDims ⟨2, ![S, C]⟩ ⟨2, ![R, 1]⟩ ⟨2, ![R, C]⟩) x idx upd (ix2 s c)
      = x (ix2 s c) + ∑ p : Fin P, upd (ix2 (e p) c) := by
  rw [hostScatterAdd_rows_apply wf x idx upd s c]
  congr 1
  refine sum_filter_eq_sum_enum (fun r : Fin R => (idx (ix2 r (0 : Fin 1))).toInt = (s.val : Int)) e hinj ?_ ?_
    (fun r => upd (ix2 r c))
  · intro p
    show (idx (ix2 (e p) (0 : Fin 1))).toInt = (s.val : Int)
    rw [hseg, hmem]
  · intro r hr
    have hr' : (idx (ix2 r (0 : Fin 1))).toInt = (s.val : Int) := hr
    rw [hseg] at hr'
    exact hsurj r (Int.ofNat.inj hr')

end Cert.LibScatterRows

end
-- ==== Proof.LibGatherAt.lean ====
import proofs.«429570_j84267258348157_3_alg».proof.Proof.LibClampIx
import Idealize.ShloMosaic.Lib.ValueIdx

/-! # `stablehlo.gather` read at an index, for four arrangements of axes

`Host.gather d x idx j = x (d.operandIdx j idx)`: on each operand axis the operand index is the clamped start
(the start index's component for that axis, read signed, when the start-index map names the axis) plus the
batching coordinate plus the offset coordinate (the result's own coordinate on an offset axis). Here are the
four arrangements in which every axis is either an offset axis read whole or a collapsed axis named by the
start-index map, there is no batching axis, and the start indices are `[N, 1]` or `[N, 2]` with the index
vector on the last axis. Each lemma is stated over variable extents, for dimension numbers given as a record of
those extents, and says which operand element result element `(l, n)` or `(n, l)` is, with the clamped
positions written as `clampIx`. -/

namespace Cert.Hand

open Idealize.ShloMosaic Idealize.ShloMosaic.ValueIdx

section LUV
variable {α : Type} {L U V N : Nat}

/-- Dimension numbers of a gather that reads, for each of `N` index pairs `(u, v)`, the whole first axis of an
    operand `[L, U, V]` at `(·, u, v)`: the result is `[L, N]`. -/
abbrev dimsLUV (L U V N : Nat)
    (wf : GatherDims.WF ⟨3, ![L, U, V]⟩ ⟨2, ![N, 2]⟩ ⟨2, ![L, N]⟩ [0] [1, 2] [] [1, 2] [] 1 ![L, 1, 1]) :
    GatherDims ⟨3, ![L, U, V]⟩ ⟨2, ![N, 2]⟩ ⟨2, ![L, N]⟩ where
  offsetDims := [0]
  collapsedSliceDims := [1, 2]
  operandBatchingDims := []
  startIndicesBatchingDims := []
  startIndexMap := [1, 2]
  indexVectorDim := 1
  sliceSizes := ![L, 1, 1]
  wf := wf

/-- Result element `(l, n)` is the operand at `(l, u, v)`, where `u` and `v` are the two words of index pair
    `n`, each read signed and clamped into its axis. -/
theorem gather_LUV_apply (hU : 0 < U) (hV : 0 < V)
    (wf : GatherDims.WF ⟨3, ![L, U, V]⟩ ⟨2, ![N, 2]⟩ ⟨2, ![L, N]⟩ [0] [1, 2] [] [1, 2] [] 1 ![L, 1, 1])
    (x : (⟨3, ![L, U, V]⟩ : Shape).Idx → α) (idx : IVec ⟨2, ![N, 2]⟩ 32) (l : Fin L) (n : Fin N) :
    Host.gather (dimsLUV L U V N wf) x idx (ix2 l n)
      = x (ix3 l (clampIx U hU (idx (ix2 n 0))) (clampIx V hV (idx (ix2 n 1)))) := by
  unfold Host.gather
  congr 1
  funext a
  refine Fin.ext ?_
  match a with
  | ⟨0, h0⟩ =>
    -- the first axis is the offset axis: no start, the result's own first coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨0, h0⟩ : Fin 3) ∉ (dimsLUV L U V N wf).startIndexMap from
      (by decide : (0 : Fin 3) ∉ ([1, 2] : List (Fin 3))))]
    unfold GatherDims.offCoord
    rw [dif_pos (show (⟨0, h0⟩ : Fin 3) ∈ (dimsLUV L U V N wf).sKept from
      (by decide : (0 : Fin 3) ∈ ([0] : List (Fin 3))))]
    rw [Nat.add_zero, Nat.zero_add]
    rfl
  | ⟨1, h1⟩ =>
    -- the second axis is collapsed and is the start index's first component
    show GatherDims.start _ _ _ _ + GatherDims.batchCoord _ _ _ + GatherDims.offCoord _ _ _ = _
    have hm : (⟨1, h1⟩ : Fin 3) ∈ (dimsLUV L U V N wf).startIndexMap :=
      (by decide : (1 : Fin 3) ∈ ([1, 2] : List (Fin 3)))
    rw [GatherDims.batchCoord_eq_zero _ _ _ List.not_mem_nil,
      GatherDims.offCoord_eq_zero _ _ _ (show (⟨1, h1⟩ : Fin 3) ∉ (dimsLUV L U V N wf).sKept from
        (by decide : (1 : Fin 3) ∉ ([0] : List (Fin 3))))]
    unfold GatherDims.start
    rw [dif_pos hm]
    have hsi : (dimsLUV L U V N wf).siIdx (ix2 l n)
        ⟨List.idxOf (⟨1, h1⟩ : Fin 3) (dimsLUV L U V N wf).startIndexMap, List.idxOf_lt_length_iff.2 hm⟩
          = ix2 n 0 := by
      funext b; refine Fin.ext ?_
      match b with
      | ⟨0, _⟩ => rfl
      | ⟨1, _⟩ => rfl
    rw [hsi]
    rfl
  | ⟨2, h2⟩ =>
    -- the third axis is collapsed and is the start index's second component
    show GatherDims.start _ _ _ _ + GatherDims.batchCoord _ _ _ + GatherDims.offCoord _ _ _ = _
    have hm : (⟨2, h2⟩ : Fin 3) ∈ (dimsLUV L U V N wf).startIndexMap :=
      (by decide : (2 : Fin 3) ∈ ([1, 2] : List (Fin 3)))
    rw [GatherDims.batchCoord_eq_zero _ _ _ List.not_mem_nil,
      GatherDims.offCoord_eq_zero _ _ _ (show (⟨2, h2⟩ : Fin 3) ∉ (dimsLUV L U V N wf).sKept from
        (by decide : (2 : Fin 3) ∉ ([0] : List (Fin 3))))]
    unfold GatherDims.start
    rw [dif_pos hm]
    have hsi : (dimsLUV L U V N wf).siIdx (ix2 l n)
        ⟨List.idxOf (⟨2, h2⟩ : Fin 3) (dimsLUV L U V N wf).startIndexMap, List.idxOf_lt_length_iff.2 hm⟩
          = ix2 n 1 := by
      funext b; refine Fin.ext ?_
      match b with
      | ⟨0, _⟩ => rfl
      | ⟨1, _⟩ => rfl
    rw [hsi]
    rfl

end LUV

section LU
variable {α : Type} {L U N : Nat}

/-- Dimension numbers of a gather that reads, for each of `N` indices `u`, the whole first axis of an operand
    `[L, U]` at `(·, u)`: the result is `[L, N]`. -/
abbrev dimsLU (L U N : Nat)
    (wf : GatherDims.WF ⟨2, ![L, U]⟩ ⟨2, ![N, 1]⟩ ⟨2, ![L, N]⟩ [0] [1] [] [1] [] 1 ![L, 1]) :
    GatherDims ⟨2, ![L, U]⟩ ⟨2, ![N, 1]⟩ ⟨2, ![L, N]⟩ where
  offsetDims := [0]
  collapsedSliceDims := [1]
  operandBatchingDims := []
  startIndicesBatchingDims := []
  startIndexMap := [1]
  indexVectorDim := 1
  sliceSizes := ![L, 1]
  wf := wf

/-- Result element `(l, n)` is the operand at `(l, u)`, where `u` is index word `n` read signed and clamped
    into the second axis. -/
theorem gather_LU_apply (hU : 0 < U)
    (wf : GatherDims.WF ⟨2, ![L, U]⟩ ⟨2, ![N, 1]⟩ ⟨2, ![L, N]⟩ [0] [1] [] [1] [] 1 ![L, 1])
    (x : (⟨2, ![L, U]⟩ : Shape).Idx → α) (idx : IVec ⟨2, ![N, 1]⟩ 32) (l : Fin L) (n : Fin N) :
    Host.gather (dimsLU L U N wf) x idx (ix2 l n) = x (ix2 l (clampIx U hU (idx (ix2 n 0)))) := by
  unfold Host.gather
  congr 1
  funext a
  refine Fin.ext ?_
  match a with
  | ⟨0, h0⟩ =>
    -- the first axis is the offset axis: no start, the result's own first coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨0, h0⟩ : Fin 2) ∉ (dimsLU L U N wf).startIndexMap from
      (by decide : (0 : Fin 2) ∉ ([1] : List (Fin 2))))]
    unfold GatherDims.offCoord
    rw [dif_pos (show (⟨0, h0⟩ : Fin 2) ∈ (dimsLU L U N wf).sKept from
      (by decide : (0 : Fin 2) ∈ ([0] : List (Fin 2))))]
    rw [Nat.add_zero, Nat.zero_add]
    rfl
  | ⟨1, h1⟩ =>
    -- the second axis is collapsed and is the start index's one component
    show GatherDims.start _ _ _ _ + GatherDims.batchCoord _ _ _ + GatherDims.offCoord _ _ _ = _
    have hm : (⟨1, h1⟩ : Fin 2) ∈ (dimsLU L U N wf).startIndexMap :=
      (by decide : (1 : Fin 2) ∈ ([1] : List (Fin 2)))
    rw [GatherDims.batchCoord_eq_zero _ _ _ List.not_mem_nil,
      GatherDims.offCoord_eq_zero _ _ _ (show (⟨1, h1⟩ : Fin 2) ∉ (dimsLU L U N wf).sKept from
        (by decide : (1 : Fin 2) ∉ ([0] : List (Fin 2))))]
    unfold GatherDims.start
    rw [dif_pos hm]
    have hsi : (dimsLU L U N wf).siIdx (ix2 l n)
        ⟨List.idxOf (⟨1, h1⟩ : Fin 2) (dimsLU L U N wf).startIndexMap, List.idxOf_lt_length_iff.2 hm⟩
          = ix2 n 0 := by
      funext b; refine Fin.ext ?_
      match b with
      | ⟨0, _⟩ => rfl
      | ⟨1, _⟩ => rfl
    rw [hsi]
    rfl

end LU

section UL
variable {α : Type} {U L N : Nat}

/-- Dimension numbers of a gather that reads, for each of `N` indices `u`, row `u` of an operand `[U, L]`:
    the result is `[N, L]`. -/
abbrev dimsUL (U L N : Nat)
    (wf : GatherDims.WF ⟨2, ![U, L]⟩ ⟨2, ![N, 1]⟩ ⟨2, ![N, L]⟩ [1] [0] [] [0] [] 1 ![1, L]) :
    GatherDims ⟨2, ![U, L]⟩ ⟨2, ![N, 1]⟩ ⟨2, ![N, L]⟩ where
  offsetDims := [1]
  collapsedSliceDims := [0]
  operandBatchingDims := []
  startIndicesBatchingDims := []
  startIndexMap := [0]
  indexVectorDim := 1
  sliceSizes := ![1, L]
  wf := wf

/-- Result element `(n, l)` is the operand at `(u, l)`, where `u` is index word `n` read signed and clamped
    into the first axis. -/
theorem gather_UL_apply (hU : 0 < U)
    (wf : GatherDims.WF ⟨2, ![U, L]⟩ ⟨2, ![N, 1]⟩ ⟨2, ![N, L]⟩ [1] [0] [] [0] [] 1 ![1, L])
    (x : (⟨2, ![U, L]⟩ : Shape).Idx → α) (idx : IVec ⟨2, ![N, 1]⟩ 32) (n : Fin N) (l : Fin L) :
    Host.gather (dimsUL U L N wf) x idx (ix2 n l) = x (ix2 (clampIx U hU (idx (ix2 n 0))) l) := by
  unfold Host.gather
  congr 1
  funext a
  refine Fin.ext ?_
  match a with
  | ⟨0, h0⟩ =>
    -- the first axis is collapsed and is the start index's one component
    show GatherDims.start _ _ _ _ + GatherDims.batchCoord _ _ _ + GatherDims.offCoord _ _ _ = _
    have hm : (⟨0, h0⟩ : Fin 2) ∈ (dimsUL U L N wf).startIndexMap :=
      (by decide : (0 : Fin 2) ∈ ([0] : List (Fin 2)))
    rw [GatherDims.batchCoord_eq_zero _ _ _ List.not_mem_nil,
      GatherDims.offCoord_eq_zero _ _ _ (show (⟨0, h0⟩ : Fin 2) ∉ (dimsUL U L N wf).sKept from
        (by decide : (0 : Fin 2) ∉ ([1] : List (Fin 2))))]
    unfold GatherDims.start
    rw [dif_pos hm]
    have hsi : (dimsUL U L N wf).siIdx (ix2 n l)
        ⟨List.idxOf (⟨0, h0⟩ : Fin 2) (dimsUL U L N wf).startIndexMap, List.idxOf_lt_length_iff.2 hm⟩
          = ix2 n 0 := by
      funext b; refine Fin.ext ?_
      match b with
      | ⟨0, _⟩ => rfl
      | ⟨1, _⟩ => rfl
    rw [hsi]
    rfl
  | ⟨1, h1⟩ =>
    -- the second axis is the offset axis: no start, the result's own second coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨1, h1⟩ : Fin 2) ∉ (dimsUL U L N wf).startIndexMap from
      (by decide : (1 : Fin 2) ∉ ([0] : List (Fin 2))))]
    unfold GatherDims.offCoord
    rw [dif_pos (show (⟨1, h1⟩ : Fin 2) ∈ (dimsUL U L N wf).sKept from
      (by decide : (1 : Fin 2) ∈ ([1] : List (Fin 2))))]
    rw [Nat.add_zero, Nat.zero_add]
    rfl

end UL

section UVL
variable {α : Type} {U V L N : Nat}

/-- Dimension numbers of a gather that reads, for each of `N` index pairs `(u, v)`, the whole last axis of an
    operand `[U, V, L]` at `(u, v, ·)`: the result is `[N, L]`. -/
abbrev dimsUVL (U V L N : Nat)
    (wf : GatherDims.WF ⟨3, ![U, V, L]⟩ ⟨2, ![N, 2]⟩ ⟨2, ![N, L]⟩ [1] [0, 1] [] [0, 1] [] 1 ![1, 1, L]) :
    GatherDims ⟨3, ![U, V, L]⟩ ⟨2, ![N, 2]⟩ ⟨2, ![N, L]⟩ where
  offsetDims := [1]
  collapsedSliceDims := [0, 1]
  operandBatchingDims := []
  startIndicesBatchingDims := []
  startIndexMap := [0, 1]
  indexVectorDim := 1
  sliceSizes := ![1, 1, L]
  wf := wf

/-- Result element `(n, l)` is the operand at `(u, v, l)`, where `u` and `v` are the two words of index pair
    `n`, each read signed and clamped into its axis. -/
theorem gather_UVL_apply (hU : 0 < U) (hV : 0 < V)
    (wf : GatherDims.WF ⟨3, ![U, V, L]⟩ ⟨2, ![N, 2]⟩ ⟨2, ![N, L]⟩ [1] [0, 1] [] [0, 1] [] 1 ![1, 1, L])
    (x : (⟨3, ![U, V, L]⟩ : Shape).Idx → α) (idx : IVec ⟨2, ![N, 2]⟩ 32) (n : Fin N) (l : Fin L) :
    Host.gather (dimsUVL U V L N wf) x idx (ix2 n l)
      = x (ix3 (clampIx U hU (idx (ix2 n 0))) (clampIx V hV (idx (ix2 n 1))) l) := by
  unfold Host.gather
  congr 1
  funext a
  refine Fin.ext ?_
  match a with
  | ⟨0, h0⟩ =>
    -- the first axis is collapsed and is the start index's first component
    show GatherDims.start _ _ _ _ + GatherDims.batchCoord _ _ _ + GatherDims.offCoord _ _ _ = _
    have hm : (⟨0, h0⟩ : Fin 3) ∈ (dimsUVL U V L N wf).startIndexMap :=
      (by decide : (0 : Fin 3) ∈ ([0, 1] : List (Fin 3)))
    rw [GatherDims.batchCoord_eq_zero _ _ _ List.not_mem_nil,
      GatherDims.offCoord_eq_zero _ _ _ (show (⟨0, h0⟩ : Fin 3) ∉ (dimsUVL U V L N wf).sKept from
        (by decide : (0 : Fin 3) ∉ ([2] : List (Fin 3))))]
    unfold GatherDims.start
    rw [dif_pos hm]
    have hsi : (dimsUVL U V L N wf).siIdx (ix2 n l)
        ⟨List.idxOf (⟨0, h0⟩ : Fin 3) (dimsUVL U V L N wf).startIndexMap, List.idxOf_lt_length_iff.2 hm⟩
          = ix2 n 0 := by
      funext b; refine Fin.ext ?_
      match b with
      | ⟨0, _⟩ => rfl
      | ⟨1, _⟩ => rfl
    rw [hsi]
    rfl
  | ⟨1, h1⟩ =>
    -- the second axis is collapsed and is the start index's second component
    show GatherDims.start _ _ _ _ + GatherDims.batchCoord _ _ _ + GatherDims.offCoord _ _ _ = _
    have hm : (⟨1, h1⟩ : Fin 3) ∈ (dimsUVL U V L N wf).startIndexMap :=
      (by decide : (1 : Fin 3) ∈ ([0, 1] : List (Fin 3)))
    rw [GatherDims.batchCoord_eq_zero _ _ _ List.not_mem_nil,
      GatherDims.offCoord_eq_zero _ _ _ (show (⟨1, h1⟩ : Fin 3) ∉ (dimsUVL U V L N wf).sKept from
        (by decide : (1 : Fin 3) ∉ ([2] : List (Fin 3))))]
    unfold GatherDims.start
    rw [dif_pos hm]
    have hsi : (dimsUVL U V L N wf).siIdx (ix2 n l)
        ⟨List.idxOf (⟨1, h1⟩ : Fin 3) (dimsUVL U V L N wf).startIndexMap, List.idxOf_lt_length_iff.2 hm⟩
          = ix2 n 1 := by
      funext b; refine Fin.ext ?_
      match b with
      | ⟨0, _⟩ => rfl
      | ⟨1, _⟩ => rfl
    rw [hsi]
    rfl
  | ⟨2, h2⟩ =>
    -- the third axis is the offset axis: no start, the result's own second coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨2, h2⟩ : Fin 3) ∉ (dimsUVL U V L N wf).startIndexMap from
      (by decide : (2 : Fin 3) ∉ ([0, 1] : List (Fin 3))))]
    unfold GatherDims.offCoord
    rw [dif_pos (show (⟨2, h2⟩ : Fin 3) ∈ (dimsUVL U V L N wf).sKept from
      (by decide : (2 : Fin 3) ∈ ([2] : List (Fin 3))))]
    rw [Nat.add_zero, Nat.zero_add]
    rfl

end UVL

end Cert.Hand
-- ==== Proof.KernelScatter.lean ====
/-
  The kernel program's two scatter-adds and its gather, each read at an index over arbitrary operands: the printed
  dimension numbers are those of a vector scatter, a row scatter and a row gather.
-/
import proofs.«429570_j84267258348157_3_alg».proof.Proof.KernelTerm
import proofs.«429570_j84267258348157_3_alg».proof.Proof.LibScatterVec
import proofs.«429570_j84267258348157_3_alg».proof.Proof.LibScatterRows
import proofs.«429570_j84267258348157_3_alg».proof.Proof.LibGatherAt

noncomputable section

namespace Cert.KernelIdeal.AtIndex

open Cert.KernelIdeal Cert.KernelIdeal.Gen Cert.Hand
open Idealize.ShloMosaic Idealize.ShloMosaic.TcCoe Idealize.ShloMosaic.ValueIdx

/-- The degree's scatter-add at node `n`: the operand there plus the updates of the rows whose word is `n`. -/
theorem scatterVec_apply (z : S50000.Idx → EReal) (idx : IVec S800000x1 32) (u : S800000.Idx → EReal) (n : Fin 50000) :
    Ideal.hostScatterAdd scatter_S50000_S800000x1_S800000_n_0_0_1 z idx u (ix1 n)
      = z (ix1 n) + ∑ r ∈ Finset.univ.filter (fun r : Fin 800000 => (idx (ix2 r (0 : Fin 1))).toInt = (n.val : Int)), u (ix1 r) :=
  Cert.LibScatterVec.hostScatterAdd_vec_apply scatter_S50000_S800000x1_S800000_n_0_0_1.wf z idx u n

/-- The aggregation's scatter-add at `(i, c)`: the operand there plus column `c` of the rows whose word is `i`. -/
theorem scatterRows_apply (z : S50000x64.Idx → EReal) (idx : IVec S800000x1 32) (u : S800000x64.Idx → EReal)
    (i : Fin 50000) (c : Fin 64) :
    Ideal.hostScatterAdd scatter_S50000x64_S800000x1_S800000x64_1_0_0_1 z idx u (ix2 i c)
      = z (ix2 i c) + ∑ r ∈ Finset.univ.filter (fun r : Fin 800000 => (idx (ix2 r (0 : Fin 1))).toInt = (i.val : Int)), u (ix2 r c) :=
  Cert.LibScatterRows.hostScatterAdd_rows_apply scatter_S50000x64_S800000x1_S800000x64_1_0_0_1.wf z idx u i c

/-- The row gather at `(e, c)`: the operand's row that word `e`, read signed, is clamped to. -/
theorem gatherRows_apply {α : Type} (y : S50000x64.Idx → α) (idx : IVec S800000x1 32) (e : Fin 800000) (c : Fin 64) :
    Host.gather gather_S50000x64_S800000x1_S800000x64_1_0_n_n_0_1_164 y idx (ix2 e c)
      = y (ix2 (clampIx 50000 (by decide) (idx (ix2 e (0 : Fin 1)))) c) :=
  gather_UL_apply (by decide) gather_S50000x64_S800000x1_S800000x64_1_0_n_n_0_1_164.wf y idx e c

end Cert.KernelIdeal.AtIndex

end
-- ==== Proof.KernelDeg.lean ====
/-
  The degree the kernel's program computes at node `n` is zero, plus a one for every edge whose target word is
  `n`, plus one — the real number `deg n` —, and the inverse square root it hands the region is `dinv n`.
-/
import proofs.«429570_j84267258348157_3_alg».proof.Proof.KernelWords
import proofs.«429570_j84267258348157_3_alg».proof.Proof.KernelScatter
import Idealize.ShloMosaic.PureOps.Ideal.Laws

noncomputable section

namespace Cert.KernelIdeal.AtIndex

open Cert.KernelIdeal Cert.KernelIdeal.Gen Cert.KernelIdeal.HostTerm Cert.Gcn
open Idealize.ShloMosaic Idealize.ShloMosaic.TcCoe Idealize.ShloMosaic.ValueIdx

variable (ei : (⟨S2x800000, .i32⟩ : BufTy).Contents (Elt Ideal))

/-- On the extended reals the host's accumulating scatter is the exact sum. -/
theorem hostScatterAdd_ideal {s si u : Shape} {φ : FTy} {k : ℕ} (d : ScatterDims s si u) (z : FVec Ideal s φ)
    (idx : IVec si k) (upd : FVec Ideal u φ) : Host.scatterAdd d z idx upd = Ideal.hostScatterAdd d z idx upd := rfl

/-- The host's inverse square root at an index is the inverse square root of the element. -/
theorem hostRsqrt_apply {s : Shape} {φ : FTy} (a : FVec Ideal s φ) (j : s.Idx) : Host.rsqrt a j = Ideal.rsqrt (a j) := rfl

/-- The zero word, broadcast, is zero everywhere. -/
theorem zeros_apply {T : Shape} (h : S_.BroadcastsInDim T ![]) (j : T.Idx) :
    broadcastInDim T ![] h (constant (F := Ideal) S_ .f32 0x00000000#32) j = (0 : EReal) := by
  rw [broadcastInDim_scalar_apply]; exact Ideal.ofBits_zero_f32

/-- The word of one, broadcast, is one everywhere. -/
theorem ones_apply {T : Shape} (h : S_.BroadcastsInDim T ![]) (j : T.Idx) :
    broadcastInDim T ![] h (constant (F := Ideal) S_ .f32 0x3F800000#32) j = (1 : EReal) := by
  rw [broadcastInDim_scalar_apply]; exact Ideal.ofBits_one_f32

/-- The rows a scatter by the target words sends to node `n` are the in-edges of `n`. -/
theorem rows_eq_inEdges (n : Fin 50000) :
    Finset.univ.filter (fun r : Fin 800000 =>
        (broadcastInDim S800000x1 ![0] bcast_S800000_S800000x1_0 (dstRow (F := Ideal) ei) (ix2 r (0 : Fin 1))).toInt
          = (n.val : Int)) = inEdges ei n := by
  unfold inEdges
  refine Finset.filter_congr fun r _ => ?_
  rw [col_apply, dstRow_apply]

/-- The count of in-edges, as the program's scatter-add of ones into zeros computes it. -/
theorem count_apply (n : Fin 50000) :
    Ideal.hostScatterAdd scatter_S50000_S800000x1_S800000_n_0_0_1
        (broadcastInDim S50000 ![] bcast_S_S50000 (constant (F := Ideal) S_ .f32 0x00000000#32))
        (broadcastInDim S800000x1 ![0] bcast_S800000_S800000x1_0 (dstRow (F := Ideal) ei))
        (broadcastInDim S800000 ![] bcast_S_S800000 (constant (F := Ideal) S_ .f32 0x3F800000#32)) (ix1 n)
      = (((inEdges ei n).card : ℝ) : EReal) := by
  rw [scatterVec_apply, zeros_apply, rows_eq_inEdges, zero_add]
  rw [Finset.sum_congr rfl fun r _ => ones_apply bcast_S_S800000 (ix1 r)]
  exact sum_ones _

/-- The degree the program computes at node `n` is the real number `deg n`. -/
theorem degree_apply (n : Fin 50000) : degree (F := Ideal) ei (ix1 n) = ((deg ei n : ℝ) : EReal) := by
  unfold degree
  rw [addf_apply, hostScatterAdd_ideal, count_apply, ones_apply]
  unfold deg
  rw [Nat.cast_add_one, EReal.coe_add, EReal.coe_one]

/-- The inverse square root the program hands the region is `dinv n`. -/
theorem invSqrtDeg_apply (n : Fin 50000) : invSqrtDeg (F := Ideal) ei (ix1 n) = dinv ei n := by
  unfold invSqrtDeg
  rw [hostRsqrt_apply, degree_apply]
  rfl

end Cert.KernelIdeal.AtIndex

end
-- ==== Proof.KernelAt.lean ====
/-
  The kernel program's result at node `i`, column `c`, is `kernelForm`: the rows of the region's array named by the
  wrapped, clamped source words of the in-edges of `i`, summed into zeros; plus the array's own row `i`; the sum
  scaled by `dinv i`; plus the bias. The region's array at `(n, c)` is `xw n c · dinv n`.
-/
import proofs.«429570_j84267258348157_3_alg».proof.Proof.KernelDeg

noncomputable section

namespace Cert.KernelIdeal.AtIndex

open Cert.KernelIdeal Cert.KernelIdeal.Gen Cert.KernelIdeal.HostTerm Cert.Gcn Cert.Hand
open Idealize.ShloMosaic Idealize.ShloMosaic.TcCoe Idealize.ShloMosaic.ValueIdx

variable (x : (⟨S50000x64, .f32⟩ : BufTy).Contents (Elt Ideal)) (ei : (⟨S2x800000, .i32⟩ : BufTy).Contents (Elt Ideal))
  (w : (⟨S64x64, .f32⟩ : BufTy).Contents (Elt Ideal)) (b : (⟨S64, .f32⟩ : BufTy).Contents (Elt Ideal))

/-- The column handed to the region holds `dinv n` in row `n`. -/
theorem invSqrtDegCol_apply (n : Fin 50000) : invSqrtDegCol (F := Ideal) ei (ix2 n (0 : Fin 1)) = dinv ei n := by
  unfold invSqrtDegCol
  refine (broadcastInDim_apply _ bcast_S50000_S50000x1_0 _ (ix2 n (0 : Fin 1)) (ix1 n) (fun a => match a with
    | ⟨0, _⟩ => by show n.val = if (50000 : Nat) = 1 then 0 else n.val; rw [if_neg (by decide)])).trans ?_
  exact invSqrtDeg_apply ei n

/-- The scaled product at `(n, c`), whatever the column. -/
theorem scaledProduct_apply (dcol : (⟨S50000x1, .f32⟩ : BufTy).Contents (Elt Ideal)) (n : Fin 50000) (c : Fin 64) :
    scaledProduct x w dcol (ix2 n c) = xw x w n c * dcol (ix2 n (0 : Fin 1)) := rfl

/-- The region's array at `(n, c)`. -/
theorem regionArray_apply (n : Fin 50000) (c : Fin 64) :
    scaledProduct x w (invSqrtDegCol (F := Ideal) ei) (ix2 n c) = xw x w n c * dinv ei n := by
  rw [scaledProduct_apply, invSqrtDegCol_apply]

/-- The gather by the wrapped source words reads, for edge `e`, the row `rowOf (src e)`. -/
theorem gathered_apply {α : Type} (y : S50000x64.Idx → α) (e : Fin 800000) (c : Fin 64) :
    Host.gather gather_S50000x64_S800000x1_S800000x64_1_0_n_n_0_1_164 y
        (broadcastInDim S800000x1 ![0] bcast_S800000_S800000x1_0 (wrappedSrc (F := Ideal) ei)) (ix2 e c)
      = y (ix2 (rowOf (srcWord ei e)) c) := by
  rw [gatherRows_apply, col_apply, wrappedSrc_apply]
  rfl

/-- A vector laid out as a column and the column repeated along the rows: entry `(i, c)` is the vector's `i`. -/
theorem perRow_apply (v : S50000.Idx → EReal) (i : Fin 50000) (c : Fin 64) :
    broadcastInDim S50000x64 ![0, 1] bcast_S50000x1_S50000x64_0_1
        (broadcastInDim S50000x1 ![0] bcast_S50000_S50000x1_0 v) (ix2 i c) = v (ix1 i) := by
  refine (broadcastInDim_apply _ bcast_S50000x1_S50000x64_0_1 _ (ix2 i c) (ix2 i (0 : Fin 1)) (fun a => match a with
    | ⟨0, _⟩ => by show i.val = if (50000 : Nat) = 1 then 0 else i.val; rw [if_neg (by decide)]
    | ⟨1, _⟩ => by show 0 = if (1 : Nat) = 1 then 0 else c.val; rw [if_pos rfl])).trans ?_
  exact broadcastInDim_apply _ bcast_S50000_S50000x1_0 v (ix2 i (0 : Fin 1)) (ix1 i) (fun a => match a with
    | ⟨0, _⟩ => by show i.val = if (50000 : Nat) = 1 then 0 else i.val; rw [if_neg (by decide)])

/-- The bias laid out as a row and the row repeated down the columns: entry `(i, c)` is the bias' `c`. -/
theorem perColumn_apply (v : S64.Idx → EReal) (i : Fin 50000) (c : Fin 64) :
    broadcastInDim S50000x64 ![0, 1] bcast_S1x64_S50000x64_0_1
        (broadcastInDim S1x64 ![1] bcast_S64_S1x64_1 v) (ix2 i c) = v (ix1 c) := by
  refine (broadcastInDim_apply _ bcast_S1x64_S50000x64_0_1 _ (ix2 i c) (ix2 (0 : Fin 1) c) (fun a => match a with
    | ⟨0, _⟩ => by show 0 = if (1 : Nat) = 1 then 0 else i.val; rw [if_pos rfl]
    | ⟨1, _⟩ => by show c.val = if (64 : Nat) = 1 then 0 else c.val; rw [if_neg (by decide)])).trans ?_
  exact broadcastInDim_apply _ bcast_S64_S1x64_1 v (ix2 (0 : Fin 1) c) (ix1 c) (fun a => match a with
    | ⟨0, _⟩ => by show c.val = if (64 : Nat) = 1 then 0 else c.val; rw [if_neg (by decide)])

/-- The rows added into node `i`: the region's rows of the in-edges' sources. -/
theorem aggregated_apply (i : Fin 50000) (c : Fin 64) :
    Ideal.hostScatterAdd scatter_S50000x64_S800000x1_S800000x64_1_0_0_1
        (broadcastInDim S50000x64 ![] bcast_S_S50000x64 (constant (F := Ideal) S_ .f32 0x00000000#32))
        (broadcastInDim S800000x1 ![0] bcast_S800000_S800000x1_0 (dstRow (F := Ideal) ei))
        (extf (F := Ideal) .f32 (Host.gather gather_S50000x64_S800000x1_S800000x64_1_0_n_n_0_1_164
            (scaledProduct x w (invSqrtDegCol (F := Ideal) ei))
            (broadcastInDim S800000x1 ![0] bcast_S800000_S800000x1_0 (wrappedSrc (F := Ideal) ei))) bitsLt_bf16_f32) (ix2 i c)
      = 0 + ∑ e ∈ inEdges ei i, xw x w (rowOf (srcWord ei e)) c * dinv ei (rowOf (srcWord ei e)) := by
  rw [scatterRows_apply, zeros_apply, rows_eq_inEdges]
  refine congrArg (fun t => (0 : EReal) + t) (Finset.sum_congr rfl fun e _ => ?_)
  rw [extf_apply, gathered_apply, regionArray_apply]

/-- The kernel program's result at `(i, c)`. -/
theorem kernel_at (i : Fin 50000) (c : Fin 64) : out x ei w b (ix2 i c) = kernelForm x ei w b i c := by
  unfold out tail
  rw [addf_apply, mulf_apply, addf_apply, hostScatterAdd_ideal, extf_apply, aggregated_apply, regionArray_apply,
    perRow_apply, invSqrtDeg_apply, perColumn_apply]
  unfold kernelForm
  rfl

end Cert.KernelIdeal.AtIndex

end
-- ==== Proof.RefRows.lean ====
/-
  The 850000 rows of the reference's two word lists. Rows 0 … 799999 are the edges: there the source list holds the
  edge's source word and the target list its target word. Rows 800000 … 849999 are one row per node, the node's own
  loop: there both lists hold the node's number. A sum over the rows whose target word, read signed, is node `n`
  is therefore a sum over the in-edges of `n` plus the one term of `n`'s own loop row.
-/
import proofs.«429570_j84267258348157_3_alg».proof.Proof.RefRead
import proofs.«429570_j84267258348157_3_alg».proof.Proof.Spec
import Mathlib.Algebra.BigOperators.Fin

noncomputable section

namespace Cert.ReferenceIdeal.AtIndex

open Cert.ReferenceIdeal Cert.ReferenceIdeal.Gen Idealize.ShloMosaic Idealize.ShloMosaic.ValueIdx
open Cert.ReferenceIdeal.ReadP Cert.Gcn

/-- The row of edge `e`. -/
def edgeRow (e : Fin 800000) : Fin 850000 := ⟨e.val, by have := e.isLt; omega⟩

/-- The row of node `n`'s own loop. -/
def loopRow (n : Fin 50000) : Fin 850000 := ⟨800000 + n.val, by have := n.isLt; omega⟩

/-- A sum over the rows cut out by a predicate is the sum over the edge rows plus the sum over the loop rows. -/
theorem sum_rows_split {M : Type} [AddCommMonoid M] (p : Fin 850000 → Prop) [DecidablePred p] (f : Fin 850000 → M) :
    ∑ r ∈ Finset.univ.filter p, f r
      = ∑ e ∈ Finset.univ.filter (fun e : Fin 800000 => p (edgeRow e)), f (edgeRow e)
        + ∑ n ∈ Finset.univ.filter (fun n : Fin 50000 => p (loopRow n)), f (loopRow n) := by
  rw [Finset.sum_filter, Finset.sum_filter, Finset.sum_filter]
  exact Fin.sum_univ_add (a := 800000) (b := 50000) (fun r => if p r then f r else 0)

/-- The source list at an edge row is the edge's source word. -/
theorem v4_edgeRow (ei : (⟨S2x800000, .i32⟩ : BufTy).Contents (Elt Ideal)) (e : Fin 800000) :
    val_main_v4 (F := Ideal) ei (ix1 (edgeRow e)) = srcWord ei e := by
  unfold val_main_v4
  rw [concatenate_pair_apply_left (0 : Fin S850000.rank) (val_main_v3 (F := Ideal) ei) (val_main_v1 (F := Ideal)) _
    (ix1 (edgeRow e)) rfl (ix1 e) (fun b => by match b with | ⟨0, _⟩ => rfl)]
  rw [val_main_v3_apply, val_main_v2_apply]
  refine congrArg ei (funext fun a => Fin.ext ?_)
  match a with
  | ⟨0, _⟩ => rfl
  | ⟨1, _⟩ => exact Nat.mod_eq_of_lt e.isLt

/-- The source list at a loop row is the node's number. -/
theorem v4_loopRow (ei : (⟨S2x800000, .i32⟩ : BufTy).Contents (Elt Ideal)) (n : Fin 50000) :
    val_main_v4 (F := Ideal) ei (ix1 (loopRow n)) = BitVec.ofNat 32 n.val := by
  unfold val_main_v4
  rw [concatenate_pair_apply_right (0 : Fin S850000.rank) (val_main_v3 (F := Ideal) ei) (val_main_v1 (F := Ideal)) _
    (ix1 (loopRow n)) rfl rfl (ix1 n) (fun b hb => absurd (Subsingleton.elim _ _) hb)
    (by show n.val + 800000 = 800000 + n.val; omega)]
  rfl

/-- The target list at an edge row is the edge's target word. -/
theorem v7_edgeRow (ei : (⟨S2x800000, .i32⟩ : BufTy).Contents (Elt Ideal)) (e : Fin 800000) :
    val_main_v7 (F := Ideal) ei (ix1 (edgeRow e)) = dstWord ei e := by
  unfold val_main_v7
  rw [concatenate_pair_apply_left (0 : Fin S850000.rank) (val_main_v6 (F := Ideal) ei) (val_main_v1 (F := Ideal)) _
    (ix1 (edgeRow e)) rfl (ix1 e) (fun b => by match b with | ⟨0, _⟩ => rfl)]
  rw [val_main_v6_apply, val_main_v5_apply]
  refine congrArg ei (funext fun a => Fin.ext ?_)
  match a with
  | ⟨0, _⟩ => rfl
  | ⟨1, _⟩ => exact Nat.mod_eq_of_lt e.isLt

/-- The target list at a loop row is the node's number. -/
theorem v7_loopRow (ei : (⟨S2x800000, .i32⟩ : BufTy).Contents (Elt Ideal)) (n : Fin 50000) :
    val_main_v7 (F := Ideal) ei (ix1 (loopRow n)) = BitVec.ofNat 32 n.val := by
  unfold val_main_v7
  rw [concatenate_pair_apply_right (0 : Fin S850000.rank) (val_main_v6 (F := Ideal) ei) (val_main_v1 (F := Ideal)) _
    (ix1 (loopRow n)) rfl rfl (ix1 n) (fun b hb => absurd (Subsingleton.elim _ _) hb)
    (by show n.val + 800000 = 800000 + n.val; omega)]
  rfl

/-- Among the loop rows, only node `n`'s own has target word `n`. -/
theorem loop_filter (ei : (⟨S2x800000, .i32⟩ : BufTy).Contents (Elt Ideal)) (n : Fin 50000) :
    Finset.univ.filter (fun m : Fin 50000 =>
        (val_main_v7 (F := Ideal) ei (ix1 (loopRow m))).toInt = (n.val : Int)) = {n} := by
  ext m
  rw [Finset.mem_filter, Finset.mem_singleton, v7_loopRow, toInt_ofNat_node]
  constructor
  · rintro ⟨_, h⟩
    exact Fin.ext (by omega)
  · rintro rfl
    exact ⟨Finset.mem_univ _, rfl⟩

/-- A sum over the rows whose target word, read signed, is node `n`: the in-edges of `n`, and `n`'s own loop row. -/
theorem sum_rows_of_target (ei : (⟨S2x800000, .i32⟩ : BufTy).Contents (Elt Ideal)) (n : Fin 50000)
    (f : Fin 850000 → EReal) :
    ∑ r ∈ Finset.univ.filter (fun r : Fin 850000 =>
        (val_main_v7 (F := Ideal) ei (ix1 r)).toInt = (n.val : Int)), f r
      = ∑ e ∈ inEdges ei n, f (edgeRow e) + f (loopRow n) := by
  rw [sum_rows_split, loop_filter, Finset.sum_singleton]
  refine congrArg (fun s => s + f (loopRow n)) ?_
  refine Finset.sum_congr ?_ (fun _ _ => rfl)
  unfold inEdges
  refine Finset.filter_congr (fun e _ => ?_)
  rw [v7_edgeRow]

end Cert.ReferenceIdeal.AtIndex

end
-- ==== Proof.LibGatherVec.lean ====
import proofs.«429570_j84267258348157_3_alg».proof.Proof.LibClampIx
import Idealize.ShloMosaic.Lib.ValueIdx

/-! # `stablehlo.gather` of single elements out of a vector, read at an index

`Host.gather d x idx j = x (d.operandIdx j idx)`. Here the operand is a vector `[U]`, the start indices are `[N, 1]`
with the index vector on the last axis, the operand's one axis is collapsed and named by the start-index map, and
there is neither an offset axis nor a batching axis: the result is `[N]`, and its element `n` is the operand at the
position that index word `n`, read signed, is clamped to (jax's `table[idx]` for a vector `table`). -/

namespace Cert.Hand

open Idealize.ShloMosaic Idealize.ShloMosaic.ValueIdx

variable {α : Type} {U N : Nat}

/-- Dimension numbers of a gather that reads, for each of `N` indices `u`, element `u` of an operand `[U]`: the
    result is `[N]`. -/
abbrev dimsU (U N : Nat)
    (wf : GatherDims.WF ⟨1, ![U]⟩ ⟨2, ![N, 1]⟩ ⟨1, ![N]⟩ [] [0] [] [0] [] 1 ![1]) :
    GatherDims ⟨1, ![U]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

/-- Result element `n` is the operand at `u`, where `u` is index word `n` read signed and clamped into the axis. -/
theorem gather_U_apply (hU : 0 < U)
    (wf : GatherDims.WF ⟨1, ![U]⟩ ⟨2, ![N, 1]⟩ ⟨1, ![N]⟩ [] [0] [] [0] [] 1 ![1])
    (x : (⟨1, ![U]⟩ : Shape).Idx → α) (idx : IVec ⟨2, ![N, 1]⟩ 32) (n : Fin N) :
    Host.gather (dimsU U N wf) x idx (ix1 n) = x (ix1 (clampIx U hU (idx (ix2 n 0)))) := by
  unfold Host.gather
  congr 1
  funext a
  refine Fin.ext ?_
  match a with
  | ⟨0, h0⟩ =>
    -- the one axis is collapsed and is the start index's one component
    show GatherDims.start _ _ _ _ + GatherDims.batchCoord _ _ _ + GatherDims.offCoord _ _ _ = _
    have hm : (⟨0, h0⟩ : Fin 1) ∈ (dimsU U N wf).startIndexMap :=
      (by decide : (0 : Fin 1) ∈ ([0] : List (Fin 1)))
    rw [GatherDims.batchCoord_eq_zero _ _ _ List.not_mem_nil,
      GatherDims.offCoord_eq_zero _ _ _ (show (⟨0, h0⟩ : Fin 1) ∉ (dimsU U N wf).sKept from
        (by decide : (0 : Fin 1) ∉ ([] : List (Fin 1))))]
    unfold GatherDims.start
    rw [dif_pos hm]
    have hsi : (dimsU U N wf).siIdx (ix1 n)
        ⟨List.idxOf (⟨0, h0⟩ : Fin 1) (dimsU U N wf).startIndexMap, List.idxOf_lt_length_iff.2 hm⟩
          = ix2 n 0 := by
      funext b; refine Fin.ext ?_
      match b with
      | ⟨0, _⟩ => rfl
      | ⟨1, _⟩ => rfl
    rw [hsi]
    rfl

end Cert.Hand
-- ==== Proof.RefOps.lean ====
/-
  The reference's four index-dependent operations read at an index, over VARIABLE operands: the two accumulating
  scatters (the degree's, a vector; the output's, rows) and the two kinds of gather (of a vector; of rows), each at the
  program's own dimension numbers. On the extended reals the host's accumulating scatter is the exact sum.
-/
import proofs.«429570_j84267258348157_3_alg».proof.Proof.RefRead
import proofs.«429570_j84267258348157_3_alg».proof.Proof.LibScatterVec
import proofs.«429570_j84267258348157_3_alg».proof.Proof.LibScatterRows
import proofs.«429570_j84267258348157_3_alg».proof.Proof.LibGatherVec
import proofs.«429570_j84267258348157_3_alg».proof.Proof.LibGatherAt

noncomputable section

namespace Cert.ReferenceIdeal.AtIndex

open Cert.ReferenceIdeal Cert.ReferenceIdeal.Gen Idealize.ShloMosaic Idealize.ShloMosaic.ValueIdx Cert.Hand

/-- On the extended reals the host's accumulating scatter is the exact sum. -/
theorem hostScatterAdd_ideal {s si u : Shape} {φ : FTy} {k : ℕ} (d : ScatterDims s si u) (z : FVec Ideal s φ)
    (idx : IVec si k) (upd : FVec Ideal u φ) : Host.scatterAdd d z idx upd = Ideal.hostScatterAdd d z idx upd := rfl

/-- The degree's scatter at node `n`: the operand there plus the updates of the rows whose index word is `n`. -/
theorem scatterVec_apply (z : FVec Ideal S50000 .f32) (idx : IVec S850000x1 32) (u : FVec Ideal S850000 .f32)
    (n : Fin 50000) :
    Ideal.hostScatterAdd scatter_S50000_S850000x1_S850000_n_0_0_1 z idx u (ix1 n)
      = z (ix1 n)
        + ∑ r ∈ Finset.univ.filter (fun r : Fin 850000 => (idx (ix2 r (0 : Fin 1))).toInt = (n.val : Int)), u (ix1 r) :=
  Cert.LibScatterVec.hostScatterAdd_vec_apply scatter_S50000_S850000x1_S850000_n_0_0_1.wf z idx u n

/-- The output's scatter at node `i`, column `c`: the operand there plus column `c` of the update rows whose index
    word is `i`. -/
theorem scatterRows_apply (z : FVec Ideal S50000x64 .f32) (idx : IVec S850000x1 32) (u : FVec Ideal S850000x64 .f32)
    (i : Fin 50000) (c : Fin 64) :
    Ideal.hostScatterAdd scatter_S50000x64_S850000x1_S850000x64_1_0_0_1 z idx u (ix2 i c)
      = z (ix2 i c)
        + ∑ r ∈ Finset.univ.filter (fun r : Fin 850000 => (idx (ix2 r (0 : Fin 1))).toInt = (i.val : Int)), u (ix2 r c) :=
  Cert.LibScatterRows.hostScatterAdd_rows_apply scatter_S50000x64_S850000x1_S850000x64_1_0_0_1.wf z idx u i c

/-- The gather of a vector over the nodes at row `r`: the vector at the node the row's index word is clamped to. -/
theorem gatherVec_apply (y : FVec Ideal S50000 .f32) (idx : IVec S850000x1 32) (r : Fin 850000) :
    Host.gather gather_S50000_S850000x1_S850000_n_0_n_n_0_1_1 y idx (ix1 r)
      = y (ix1 (clampIx 50000 (by decide) (idx (ix2 r (0 : Fin 1))))) :=
  gather_U_apply (by decide) gather_S50000_S850000x1_S850000_n_0_n_n_0_1_1.wf y idx r

/-- The gather of rows at row `r`, column `c`: the operand's row at the node the row's index word is clamped to. -/
theorem gatherRows_apply (y : FVec Ideal S50000x64 .f32) (idx : IVec S850000x1 32) (r : Fin 850000) (c : Fin 64) :
    Host.gather gather_S50000x64_S850000x1_S850000x64_1_0_n_n_0_1_164 y idx (ix2 r c)
      = y (ix2 (clampIx 50000 (by decide) (idx (ix2 r (0 : Fin 1)))) c) :=
  gather_UL_apply (by decide) gather_S50000x64_S850000x1_S850000x64_1_0_n_n_0_1_164.wf y idx r c

end Cert.ReferenceIdeal.AtIndex

end
-- ==== Proof.RefDeg.lean ====
/-
  The degree of a node and its inverse square root, as the reference computes them.

  The reference counts, into a vector of zeros, a one for every row whose target word is the node: by the split of the
  rows that is the number of the node's in-edges plus one for its own loop, the real `deg`. It is positive, so the
  comparison with zero holds, the selection takes the inverse square root, and the result is `dinv`.
-/
import proofs.«429570_j84267258348157_3_alg».proof.Proof.RefRows
import proofs.«429570_j84267258348157_3_alg».proof.Proof.RefOps
import Idealize.ShloMosaic.Lib.IdealHost

noncomputable section

namespace Cert.ReferenceIdeal.AtIndex

open Cert.ReferenceIdeal Cert.ReferenceIdeal.Gen Idealize.ShloMosaic Idealize.ShloMosaic.ValueIdx
open Cert.ReferenceIdeal.ReadP Cert.Gcn

/-- The vector of zeros the count starts from. -/
theorem v9_at (n : Fin 50000) : val_main_v9 (F := Ideal) (ix1 n) = 0 := by
  rw [val_main_v9_apply, val_main_cst_0_apply]
  exact Ideal.ofBits_zero_f32

/-- The vector of ones that is counted. -/
theorem v8_at (r : Fin 850000) : val_main_v8 (F := Ideal) (ix1 r) = 1 := by
  rw [val_main_v8_apply, val_main_cst_apply]
  exact Ideal.ofBits_one_f32

/-- The count's index column at row `r` is the target list there. -/
theorem v10_at (ei : (⟨S2x800000, .i32⟩ : BufTy).Contents (Elt Ideal)) (r : Fin 850000) :
    val_main_v10 (F := Ideal) ei (ix2 r (0 : Fin 1)) = val_main_v7 (F := Ideal) ei (ix1 r) := by
  rw [val_main_v10_apply]
  refine congrArg _ (funext fun a => Fin.ext ?_)
  match a with
  | ⟨0, _⟩ => rfl

/-- The rows the count sends to node `n` are those whose target word is `n`. -/
theorem v10_filter (ei : (⟨S2x800000, .i32⟩ : BufTy).Contents (Elt Ideal)) (n : Fin 50000) :
    Finset.univ.filter (fun r : Fin 850000 =>
        (val_main_v10 (F := Ideal) ei (ix2 r (0 : Fin 1))).toInt = (n.val : Int))
      = Finset.univ.filter (fun r : Fin 850000 => (val_main_v7 (F := Ideal) ei (ix1 r)).toInt = (n.val : Int)) :=
  Finset.filter_congr fun r _ => by rw [v10_at]

/-- The count at node `n` is the degree of `n`. -/
theorem v11_at (ei : (⟨S2x800000, .i32⟩ : BufTy).Contents (Elt Ideal)) (n : Fin 50000) :
    val_main_v11 (F := Ideal) ei (ix1 n) = ((deg ei n : ℝ) : EReal) := by
  unfold val_main_v11
  rw [hostScatterAdd_ideal, scatterVec_apply, v9_at, zero_add, v10_filter, sum_rows_of_target, v8_at]
  rw [Finset.sum_congr rfl (fun e _ => v8_at (edgeRow e)), sum_ones]
  unfold deg
  rw [Nat.cast_add_one, EReal.coe_add, EReal.coe_one]

/-- The comparison of a positive real with zero holds. -/
theorem cmp_ogt_of_pos (d : ℝ) (hd : 0 < d) : Ideal.cmp .ogt ((d : ℝ) : EReal) 0 = 1#1 := by
  show BitVec.ofBool (decide ((0 : EReal) < ((d : ℝ) : EReal))) = 1#1
  rw [decide_eq_true (by exact_mod_cast hd)]
  rfl

/-- A selection on the true word takes its first branch. -/
theorem select_one {α : Type} (a b : α) : Scalar.select (1#1 : BitVec 1) a b = a := if_pos rfl

/-- The reference's `dis` at node `n` is `dinv`. -/
theorem v15_at (ei : (⟨S2x800000, .i32⟩ : BufTy).Contents (Elt Ideal)) (n : Fin 50000) :
    val_main_v15 (F := Ideal) ei (ix1 n) = dinv ei n := by
  rw [val_main_v15_apply, val_main_v13_apply, val_main_v14_apply, v11_at, val_main_v12_apply, val_main_cst_1_apply,
    Ideal.ofBits_def, Ideal.ofBits_zero_f32]
  have hc : FloatOps.cmpf (F := Ideal) (φ := .f32) .ogt ((deg ei n : ℝ) : EReal) (0 : EReal) = 1#1 := cmp_ogt_of_pos _ (deg_pos ei n)
  rw [hc, select_one, Ideal.hostUnary_rsqrt_def]
  rfl

end Cert.ReferenceIdeal.AtIndex

end
-- ==== Proof.RefGather.lean ====
/-
  The reference's three gathers and the update rows of its final scatter, read at a row.

  A gather looks a word up after adding 50000 to it when it is negative, then clamps it, read signed, into the nodes:
  it reads node `rowOf w`. So at row `r` the two gathers of `dis` read `dinv` at the nodes of the source word and the
  target word of the row, the gather of `x · W` reads the product's row at the node of the source word, and the update
  row of the final scatter is the product's row times the two `dinv` factors.
-/
import proofs.«429570_j84267258348157_3_alg».proof.Proof.RefDeg

noncomputable section

namespace Cert.ReferenceIdeal.AtIndex

open Cert.ReferenceIdeal Cert.ReferenceIdeal.Gen Idealize.ShloMosaic Idealize.ShloMosaic.ValueIdx
open Cert.ReferenceIdeal.ReadP Cert.Gcn Cert.Hand

/-- The first gather's index column at row `r`: the source word there, 50000 added when it is negative. -/
theorem v21_at (ei : (⟨S2x800000, .i32⟩ : BufTy).Contents (Elt Ideal)) (r : Fin 850000) :
    val_main_v21 (F := Ideal) ei (ix2 r (0 : Fin 1)) = wrapWord (val_main_v4 (F := Ideal) ei (ix1 r)) := by
  have hi : idx_main_v21 (ix2 r (0 : Fin 1)) = ix1 r := funext fun a => Fin.ext (by match a with | ⟨0, _⟩ => rfl)
  rw [val_main_v21_apply, hi, val_main_v20_apply, val_main_v17_apply, val_main_v19_apply, val_main_v16_apply,
    val_main_v18_apply, val_main_c_apply, val_main_c_3_apply]
  generalize val_main_v4 (F := Ideal) ei (ix1 r) = word
  rfl

/-- The second gather's index column at row `r`: the target word there, 50000 added when it is negative. -/
theorem v28_at (ei : (⟨S2x800000, .i32⟩ : BufTy).Contents (Elt Ideal)) (r : Fin 850000) :
    val_main_v28 (F := Ideal) ei (ix2 r (0 : Fin 1)) = wrapWord (val_main_v7 (F := Ideal) ei (ix1 r)) := by
  have hi : idx_main_v28 (ix2 r (0 : Fin 1)) = ix1 r := funext fun a => Fin.ext (by match a with | ⟨0, _⟩ => rfl)
  rw [val_main_v28_apply, hi, val_main_v27_apply, val_main_v24_apply, val_main_v26_apply, val_main_v23_apply,
    val_main_v25_apply, val_main_c_4_apply, val_main_c_5_apply]
  generalize val_main_v7 (F := Ideal) ei (ix1 r) = word
  rfl

/-- The third gather's index column at row `r`: the source word again. -/
theorem v36_at (ei : (⟨S2x800000, .i32⟩ : BufTy).Contents (Elt Ideal)) (r : Fin 850000) :
    val_main_v36 (F := Ideal) ei (ix2 r (0 : Fin 1)) = wrapWord (val_main_v4 (F := Ideal) ei (ix1 r)) := by
  have hi : idx_main_v36 (ix2 r (0 : Fin 1)) = ix1 r := funext fun a => Fin.ext (by match a with | ⟨0, _⟩ => rfl)
  rw [val_main_v36_apply, hi, val_main_v35_apply, val_main_v32_apply, val_main_v34_apply, val_main_v31_apply,
    val_main_v33_apply, val_main_c_6_apply, val_main_c_7_apply]
  generalize val_main_v4 (F := Ideal) ei (ix1 r) = word
  rfl

/-- `dis[src]` at row `r`. -/
theorem v22_at (ei : (⟨S2x800000, .i32⟩ : BufTy).Contents (Elt Ideal)) (r : Fin 850000) :
    val_main_v22 (F := Ideal) ei (ix1 r) = dinv ei (rowOf (val_main_v4 (F := Ideal) ei (ix1 r))) := by
  unfold val_main_v22
  rw [gatherVec_apply, v21_at, v15_at]
  generalize val_main_v4 (F := Ideal) ei (ix1 r) = word
  rfl

/-- `dis[dst]` at row `r`. -/
theorem v29_at (ei : (⟨S2x800000, .i32⟩ : BufTy).Contents (Elt Ideal)) (r : Fin 850000) :
    val_main_v29 (F := Ideal) ei (ix1 r) = dinv ei (rowOf (val_main_v7 (F := Ideal) ei (ix1 r))) := by
  unfold val_main_v29
  rw [gatherVec_apply, v28_at, v15_at]
  generalize val_main_v7 (F := Ideal) ei (ix1 r) = word
  rfl

/-- The product `x · W` at node `n`, column `c`. -/
theorem v0_at (x : (⟨S50000x64, .f32⟩ : BufTy).Contents (Elt Ideal)) (w : (⟨S64x64, .f32⟩ : BufTy).Contents (Elt Ideal))
    (n : Fin 50000) (c : Fin 64) : val_main_v0 (F := Ideal) x w (ix2 n c) = xw x w n c := by
  rw [val_main_v0_apply]
  unfold xw
  refine Finset.sum_congr rfl fun k _ => ?_
  have hl : lidx_main_v0 (ix2 n c) k = ix2 n k :=
    funext fun a => Fin.ext (by match a with | ⟨0, _⟩ => rfl | ⟨1, _⟩ => rfl)
  have hr : ridx_main_v0 (ix2 n c) k = ix2 k c :=
    funext fun a => Fin.ext (by match a with | ⟨0, _⟩ => rfl | ⟨1, _⟩ => rfl)
  rw [hl, hr]

/-- `xw[src]` at row `r`, column `c`. -/
theorem v37_at (x : (⟨S50000x64, .f32⟩ : BufTy).Contents (Elt Ideal)) (ei : (⟨S2x800000, .i32⟩ : BufTy).Contents (Elt Ideal))
    (w : (⟨S64x64, .f32⟩ : BufTy).Contents (Elt Ideal)) (r : Fin 850000) (c : Fin 64) :
    val_main_v37 (F := Ideal) x ei w (ix2 r c) = xw x w (rowOf (val_main_v4 (F := Ideal) ei (ix1 r))) c := by
  unfold val_main_v37
  rw [gatherRows_apply, v36_at, v0_at]
  generalize val_main_v4 (F := Ideal) ei (ix1 r) = word
  rfl

/-- The normalisation factor at row `r`, as a column of the update rows. -/
theorem v39_at (ei : (⟨S2x800000, .i32⟩ : BufTy).Contents (Elt Ideal)) (r : Fin 850000) (c : Fin 64) :
    val_main_v39 (F := Ideal) ei (ix2 r c)
      = dinv ei (rowOf (val_main_v4 (F := Ideal) ei (ix1 r))) * dinv ei (rowOf (val_main_v7 (F := Ideal) ei (ix1 r))) := by
  have h39 : idx_main_v39 (ix2 r c) = ix2 r (0 : Fin 1) :=
    funext fun a => Fin.ext (by match a with | ⟨0, _⟩ => rfl | ⟨1, _⟩ => rfl)
  have h38 : idx_main_v38 (ix2 r (0 : Fin 1)) = ix1 r := funext fun a => Fin.ext (by match a with | ⟨0, _⟩ => rfl)
  rw [val_main_v39_apply, h39, val_main_v38_apply, h38, val_main_v30_apply, v22_at, v29_at, Ideal.mulf_def]

/-- The update row of the final scatter at row `r`, column `c`. -/
theorem v40_at (x : (⟨S50000x64, .f32⟩ : BufTy).Contents (Elt Ideal)) (ei : (⟨S2x800000, .i32⟩ : BufTy).Contents (Elt Ideal))
    (w : (⟨S64x64, .f32⟩ : BufTy).Contents (Elt Ideal)) (r : Fin 850000) (c : Fin 64) :
    val_main_v40 (F := Ideal) x ei w (ix2 r c)
      = xw x w (rowOf (val_main_v4 (F := Ideal) ei (ix1 r))) c
        * (dinv ei (rowOf (val_main_v4 (F := Ideal) ei (ix1 r))) * dinv ei (rowOf (val_main_v7 (F := Ideal) ei (ix1 r)))) := by
  rw [val_main_v40_apply, v37_at, v39_at, Ideal.mulf_def]

end Cert.ReferenceIdeal.AtIndex

end
-- ==== Proof.RefAt.lean ====
/-
  The reference's output at node `i`, column `c`.

  The output is the final scatter plus the bias. The scatter adds, into zeros, every update row whose target word is
  `i`: by the split of the rows, the update rows of the in-edges of `i` and the update row of `i`'s own loop. On an
  edge row the two word lists hold the edge's source and target words; on the loop row both hold `i`'s number, which
  both gathers read at node `i`. That is the reference's form of the layer.
-/
import proofs.«429570_j84267258348157_3_alg».proof.Proof.RefGather

noncomputable section

namespace Cert.ReferenceIdeal.AtIndex

open Cert.ReferenceIdeal Cert.ReferenceIdeal.Gen Idealize.ShloMosaic Idealize.ShloMosaic.ValueIdx
open Cert.ReferenceIdeal.ReadP Cert.Gcn

/-- The zeros the final scatter starts from. -/
theorem v41_at (i : Fin 50000) (c : Fin 64) : val_main_v41 (F := Ideal) (ix2 i c) = 0 := by
  rw [val_main_v41_apply, val_main_cst_8_apply]
  exact Ideal.ofBits_zero_f32

/-- The final scatter's index column at row `r` is the target list there. -/
theorem v42_at (ei : (⟨S2x800000, .i32⟩ : BufTy).Contents (Elt Ideal)) (r : Fin 850000) :
    val_main_v42 (F := Ideal) ei (ix2 r (0 : Fin 1)) = val_main_v7 (F := Ideal) ei (ix1 r) := by
  rw [val_main_v42_apply]
  refine congrArg _ (funext fun a => Fin.ext ?_)
  match a with
  | ⟨0, _⟩ => rfl

/-- The rows the final scatter sends to node `i` are those whose target word is `i`. -/
theorem v42_filter (ei : (⟨S2x800000, .i32⟩ : BufTy).Contents (Elt Ideal)) (i : Fin 50000) :
    Finset.univ.filter (fun r : Fin 850000 =>
        (val_main_v42 (F := Ideal) ei (ix2 r (0 : Fin 1))).toInt = (i.val : Int))
      = Finset.univ.filter (fun r : Fin 850000 => (val_main_v7 (F := Ideal) ei (ix1 r)).toInt = (i.val : Int)) :=
  Finset.filter_congr fun r _ => by rw [v42_at]

/-- The bias, broadcast over the nodes. -/
theorem v45_at (b : (⟨S64, .f32⟩ : BufTy).Contents (Elt Ideal)) (i : Fin 50000) (c : Fin 64) :
    val_main_v45 (F := Ideal) b (ix2 i c) = b (ix1 c) := by
  rw [val_main_v45_apply, val_main_v44_apply]
  refine congrArg b (funext fun a => Fin.ext ?_)
  match a with
  | ⟨0, _⟩ => rfl

/-- The final scatter at node `i`, column `c`. -/
theorem v43_at (x : (⟨S50000x64, .f32⟩ : BufTy).Contents (Elt Ideal)) (ei : (⟨S2x800000, .i32⟩ : BufTy).Contents (Elt Ideal))
    (w : (⟨S64x64, .f32⟩ : BufTy).Contents (Elt Ideal)) (i : Fin 50000) (c : Fin 64) :
    val_main_v43 (F := Ideal) x ei w (ix2 i c)
      = 0 + (∑ e ∈ inEdges ei i, xw x w (rowOf (srcWord ei e)) c
                * (dinv ei (rowOf (srcWord ei e)) * dinv ei (rowOf (dstWord ei e)))
              + xw x w i c * (dinv ei i * dinv ei i)) := by
  unfold val_main_v43
  rw [hostScatterAdd_ideal, scatterRows_apply, v41_at, v42_filter,
    sum_rows_of_target ei i (fun r => val_main_v40 (F := Ideal) x ei w (ix2 r c))]
  refine congrArg (fun s => (0 : EReal) + s) ?_
  rw [v40_at, v4_loopRow, v7_loopRow, rowOf_ofNat_node]
  refine congrArg (fun s => s + xw x w i c * (dinv ei i * dinv ei i)) ?_
  refine Finset.sum_congr rfl fun e _ => ?_
  rw [v40_at, v4_edgeRow, v7_edgeRow]

/-- The reference's output at node `i`, column `c` is the reference's form of the layer. -/
theorem reference_at (x : (⟨S50000x64, .f32⟩ : BufTy).Contents (Elt Ideal)) (ei : (⟨S2x800000, .i32⟩ : BufTy).Contents (Elt Ideal))
    (w : (⟨S64x64, .f32⟩ : BufTy).Contents (Elt Ideal)) (b : (⟨S64, .f32⟩ : BufTy).Contents (Elt Ideal)) (i : Fin 50000) (c : Fin 64) :
    Cert.ReferenceIdeal.ReadP.val_main_v46 (F := Ideal) x ei w b (ix2 i c) = Cert.Gcn.referenceForm x ei w b i c := by
  rw [val_main_v46_apply, v43_at, v45_at, Ideal.addf_def]
  unfold referenceForm
  rfl

end Cert.ReferenceIdeal.AtIndex

end
-- ==== Proof.Law.lean ====
/-
  The two forms of the layer agree when `x` and `W` hold real numbers.

  Every entry of `x · W` is then a real number (a finite sum of products of reals), and every `dinv` is a positive
  real. On an in-edge of node `i` the clamped target is `i`, so the reference's factor `dinv (src) · dinv (dst)` is
  `dinv (src) · dinv i`. What is left is an identity between real numbers: the factor `dinv i` distributes over the
  sum of the in-edges' terms and the node's own term — the step that fails on the extended reals when a summand is
  infinite —, and products re-associate. The bias is added last on both sides and may be any extended real.
-/
import proofs.«429570_j84267258348157_3_alg».proof.Proof.Spec

noncomputable section

namespace Cert.Gcn

open Idealize.ShloMosaic Idealize.ShloMosaic.ValueIdx

/-- The law over any index types: `s` a finite set of edges, `g` and `t` the nodes an edge's source and target are
    read at, every edge of `s` with target `i`, `A` and `d` real-valued on the nodes. Scaling each edge's term by
    `d (source)`, summing with the node's own term `A i · d i`, and scaling the sum by `d i` is summing the terms
    scaled by `d (source) · d (target)` with `A i · (d i · d i)`. -/
theorem scale_sum_eq {ι ν : Type} (s : Finset ι) (g t : ι → ν) (i : ν) (ht : ∀ e ∈ s, t e = i) (A d : ν → EReal)
    (hA : ∀ n, ∃ r : ℝ, A n = (r : EReal)) (hd : ∀ n, ∃ r : ℝ, d n = (r : EReal)) (β : EReal) :
    ((0 + ∑ e ∈ s, A (g e) * d (g e)) + A i * d i) * d i + β
      = (0 + (∑ e ∈ s, A (g e) * (d (g e) * d (t e)) + A i * (d i * d i))) + β := by
  choose X hX using hA
  choose D hD using hd
  congr 1
  have hR : ∑ e ∈ s, A (g e) * (d (g e) * d (t e)) = ∑ e ∈ s, ((X (g e) * (D (g e) * D i) : ℝ) : EReal) := by
    refine Finset.sum_congr rfl fun e he => ?_
    rw [ht e he, hX, hD, hD, ← EReal.coe_mul, ← EReal.coe_mul]
  have hK : ∑ e ∈ s, A (g e) * d (g e) = ∑ e ∈ s, ((X (g e) * D (g e) : ℝ) : EReal) := by
    refine Finset.sum_congr rfl fun e _ => ?_
    rw [hX, hD, ← EReal.coe_mul]
  rw [hR, hK, hX, hD, ← coe_sum, ← coe_sum, zero_add, zero_add]
  rw [← EReal.coe_mul, ← EReal.coe_add, ← EReal.coe_mul, ← EReal.coe_mul, ← EReal.coe_mul, ← EReal.coe_add]
  congr 1
  rw [add_mul, Finset.sum_mul]
  congr 1
  · exact Finset.sum_congr rfl fun e _ => by ring
  · ring

/-- An entry of `x · W` is a real number when the entries of `x` and `W` are. -/
theorem xw_real (x : (⟨2, ![50000, 64]⟩ : Shape).Idx → EReal) (w : (⟨2, ![64, 64]⟩ : Shape).Idx → EReal)
    (hx : ∀ j, ∃ r : ℝ, x j = (r : EReal)) (hw : ∀ j, ∃ r : ℝ, w j = (r : EReal)) (n : Fin 50000) (c : Fin 64) :
    ∃ r : ℝ, xw x w n c = (r : EReal) := by
  choose xr hxr using hx
  choose wr hwr using hw
  refine ⟨∑ k : Fin 64, xr (ix2 n k) * wr (ix2 k c), ?_⟩
  unfold xw
  rw [coe_sum]
  refine Finset.sum_congr rfl fun k _ => ?_
  rw [hxr, hwr, EReal.coe_mul]

/-- The kernel's form of the layer is the reference's, at real `x` and `W`. -/
theorem forms_eq (x : (⟨2, ![50000, 64]⟩ : Shape).Idx → EReal) (ei : Edges) (w : (⟨2, ![64, 64]⟩ : Shape).Idx → EReal)
    (b : (⟨1, ![64]⟩ : Shape).Idx → EReal) (hx : ∀ j, ∃ r : ℝ, x j = (r : EReal)) (hw : ∀ j, ∃ r : ℝ, w j = (r : EReal))
    (i : Fin 50000) (c : Fin 64) : kernelForm x ei w b i c = referenceForm x ei w b i c :=
  scale_sum_eq (inEdges ei i) (fun e => rowOf (srcWord ei e)) (fun e => rowOf (dstWord ei e)) i
    (fun e he => rowOf_dst_of_mem ei i e he) (fun n => xw x w n c) (dinv ei)
    (fun n => xw_real x w hx hw n c) (fun n => ⟨_, dinv_eq_coe ei n⟩) (b (ix1 c))

end Cert.Gcn

end
-- ==== Proof.Finite.lean ====
/-
  What the precondition says: every entry of `x` and of `W` is a real number.

  The precondition is the conjunction of three `all (|v| < +∞)` tests, on `x`, `W` and the bias. A conjunction of
  one-bit words is one only if each is; a reduction by `and` to a single word is one only if every operand word is;
  and an extended real whose absolute value `max v (-v)` lies below `+∞` is neither infinity.
-/
import proofs.«429570_j84267258348157_3_alg».proof.Pre_finite_inputs
import proofs.«429570_j84267258348157_3_alg».proof.Proof.Gen.Pre_finite_inputs
import Idealize.ShloMosaic.PureOps.Ideal
import Idealize.ShloMosaic.Lib.ReduceAll
import Idealize.ShloMosaic.Lib.IdealHost
import Idealize.ShloMosaic.Lib.Affine

noncomputable section

namespace Cert.Gcn

open Idealize.ShloMosaic Idealize.ShloMosaic.ValueIdx

/-- The f32 word `0x7F800000` is `+∞`. -/
theorem ofBits_inf_f32 : Ideal.ofBits .f32 0x7F800000#32 = (⊤ : EReal) := by
  simp [Ideal.ofBits, Ideal.ieee]

/-- An extended real whose absolute value is below `+∞` is a real number. -/
theorem real_of_abs_lt_top (v : EReal) (h : Ideal.cmp .olt (max v (-v)) (⊤ : EReal) = 1#1) : ∃ r : ℝ, v = (r : EReal) := by
  have hlt : max v (-v) < ⊤ := by
    by_contra hn
    have : Ideal.cmp .olt (max v (-v)) (⊤ : EReal) = 0#1 := by
      show BitVec.ofBool (decide (max v (-v) < ⊤)) = 0#1
      rw [decide_eq_false hn]; rfl
    rw [this] at h
    exact absurd h (by decide)
  induction v using EReal.rec with
  | bot => exact absurd hlt (by simp)
  | coe r => exact ⟨r, rfl⟩
  | top => exact absurd hlt (by simp)

instance : Subsingleton Cert.Pre_finite_inputs.S_.Idx := ⟨fun _ _ => funext fun d => d.elim0⟩

/-- Under the precondition, `x` and `W` hold real numbers. -/
theorem real_of_pre (x : FVec Ideal Cert.Pre_finite_inputs.S50000x64 .f32) (ei : IVec Cert.Pre_finite_inputs.S2x800000 32)
    (w : FVec Ideal Cert.Pre_finite_inputs.S64x64 .f32) (b : FVec Ideal Cert.Pre_finite_inputs.S64 .f32)
    (h : Cert.Pre_finite_inputs.fn (F := Ideal) x ei w b = fun _ => 1#1) :
    (∀ j, ∃ r : ℝ, x j = (r : EReal)) ∧ (∀ j, ∃ r : ℝ, w j = (r : EReal)) := by
  have h0 := congrFun h ix0
  dsimp only [Cert.Pre_finite_inputs.fn] at h0
  obtain ⟨h12, -⟩ := IntOp.andi_eq_one.1 h0
  obtain ⟨h1, h2⟩ := IntOp.andi_eq_one.1 h12
  constructor
  · intro j
    have hj := Host.reduce_andi_all _ _ _ _ _ h1 j
    refine real_of_abs_lt_top (x j) ?_
    rw [← ofBits_inf_f32]
    have e : broadcastInDim Cert.Pre_finite_inputs.S50000x64 ![] Cert.Pre_finite_inputs.Facts.bcast_S_S50000x64
        (constant (F := Ideal) Cert.Pre_finite_inputs.S_ .f32 0x7F800000#32) j = Ideal.ofBits .f32 0x7F800000#32 := by
      rw [broadcastInDim_scalar_apply]; rfl
    rw [← e]
    exact hj
  · intro j
    have hj := Host.reduce_andi_all _ _ _ _ _ h2 j
    refine real_of_abs_lt_top (w j) ?_
    rw [← ofBits_inf_f32]
    have e : broadcastInDim Cert.Pre_finite_inputs.S64x64 ![] Cert.Pre_finite_inputs.Facts.bcast_S_S64x64
        (constant (F := Ideal) Cert.Pre_finite_inputs.S_ .f32 0x7F800000#32) j = Ideal.ofBits .f32 0x7F800000#32 := by
      rw [broadcastInDim_scalar_apply]; rfl
    rw [← e]
    exact hj

end Cert.Gcn

end
-- ==== Proof.Bridge.lean ====
/-
  The reference's result and the kernel program's result are one array, under the precondition: at every node and
  column the reference computes `referenceForm` and the kernel's program `kernelForm`, and the two forms agree when
  `x` and `W` hold real numbers, which is what the precondition says of them.
-/
import proofs.«429570_j84267258348157_3_alg».proof.Proof.KernelAt
import proofs.«429570_j84267258348157_3_alg».proof.Proof.RefAt
import proofs.«429570_j84267258348157_3_alg».proof.Proof.Law
import proofs.«429570_j84267258348157_3_alg».proof.Proof.Finite

noncomputable section

namespace Cert.Gcn

open Idealize.ShloMosaic Idealize.ShloMosaic.ValueIdx

/-- The two programs' results as terms of the same four arguments are equal, under the precondition. -/
theorem results_eq (x : (⟨Cert.KernelIdeal.S50000x64, .f32⟩ : BufTy).Contents (Elt Ideal))
    (ei : (⟨Cert.KernelIdeal.S2x800000, .i32⟩ : BufTy).Contents (Elt Ideal))
    (w : (⟨Cert.KernelIdeal.S64x64, .f32⟩ : BufTy).Contents (Elt Ideal))
    (b : (⟨Cert.KernelIdeal.S64, .f32⟩ : BufTy).Contents (Elt Ideal))
    (hpre : Cert.Pre_finite_inputs.fn (F := Ideal) x ei w b = fun _ => 1#1) :
    Cert.ReferenceIdeal.ReadP.val_main_v46 (F := Ideal) x ei w b = Cert.KernelIdeal.HostTerm.out x ei w b := by
  obtain ⟨hx, hw⟩ := real_of_pre x ei w b hpre
  funext j
  obtain ⟨i, c, rfl⟩ : ∃ (i : Fin 50000) (c : Fin 64), j = ix2 i c := ⟨j 0, j 1, eq_ix2 j⟩
  rw [Cert.ReferenceIdeal.AtIndex.reference_at, Cert.KernelIdeal.AtIndex.kernel_at]
  exact (forms_eq x ei w b hx hw i c).symm

end Cert.Gcn

end
-- ==== Proof.lean ====
/-
  A graph-convolution layer: `out = D^(-1/2) (A + I) D^(-1/2) (x W) + b`, with `A` the adjacency counted from an edge
  list and `D` the degree including each node's own loop.

  The kernel's program scales the rows of `x W` by `dinv` inside its one region, sums the scaled rows of each node's
  in-edges' sources on the host, adds the node's own scaled row, scales the sum by `dinv` once more and adds the
  bias. The reference appends one loop edge per node to the edge list, scales every edge's source row by
  `dinv (source) · dinv (target)`, sums by target and adds the bias. On the extended reals, with `x` and `W` real,
  the two results are one array (`Cert.Gcn.results_eq`): both scatters drop the same edges (those whose target word
  is no node), both gathers read the same rows, the degrees agree, and the last factor distributes over the sum.

  The three frames: the kernel's two programs by their frame certificates; the reference's from its run.
-/
import proofs.«429570_j84267258348157_3_alg».proof.Defs
import proofs.«429570_j84267258348157_3_alg».proof.Proof.Gen.Kernel
import proofs.«429570_j84267258348157_3_alg».proof.Proof.Gen.Kernel.Skeleton
import proofs.«429570_j84267258348157_3_alg».proof.Proof.Gen.Kernel.Launch
import proofs.«429570_j84267258348157_3_alg».proof.Proof.Gen.Kernel.Points
import proofs.«429570_j84267258348157_3_alg».proof.Proof.Gen.Kernel.Frame
import proofs.«429570_j84267258348157_3_alg».proof.Proof.Gen.KernelIdeal
import proofs.«429570_j84267258348157_3_alg».proof.Proof.Gen.KernelIdeal.Skeleton
import proofs.«429570_j84267258348157_3_alg».proof.Proof.Gen.KernelIdeal.Launch
import proofs.«429570_j84267258348157_3_alg».proof.Proof.Gen.KernelIdeal.Points
import proofs.«429570_j84267258348157_3_alg».proof.Proof.Gen.KernelIdeal.Frame
import proofs.«429570_j84267258348157_3_alg».proof.Proof.Gen.ReferenceIdeal
import proofs.«429570_j84267258348157_3_alg».proof.Proof.Gen.Pre_finite_inputs
import proofs.«429570_j84267258348157_3_alg».proof.Proof.RefRun
import proofs.«429570_j84267258348157_3_alg».proof.Proof.RefRead
import proofs.«429570_j84267258348157_3_alg».proof.Proof.KernelRun
import proofs.«429570_j84267258348157_3_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs run, and from memories that agree on the arguments they end with the same result array: the
    kernel's program at its host term of the arguments, the reference at its own, equal under the precondition. -/
theorem algebraic : Cert.algebraic_KernelIdeal_ReferenceIdeal := by
  intro m ρ m' ρ' hpre hagree
  refine ⟨_, Cert.KernelIdeal.HostTerm.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v46_eq, (hagree c).1, (hagree c).2.1, (hagree c).2.2.1, (hagree c).2.2.2]
  exact Cert.Gcn.results_eq _ _ _ _ (hpre c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
